-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S4096x4096 : Shape := ⟨2, ![4096, 4096]⟩
abbrev S32x4096 : Shape := ⟨2, ![32, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_arg2 : IVec S4096 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 4294963200#32
  let main_v19 : IVec S4096 32 := broadcastInDim S4096 ![] bcast_S_S4096 main_c_6
  let main_v20 : IVec S4096 1 := cmpi .sge main_arg1 main_v19
  let main_c_7 : IVec S_ 32 := constantI S_ 32 4096#32
  let main_v21 : IVec S4096 32 := broadcastInDim S4096 ![] bcast_S_S4096 main_c_7
  let main_v22 : IVec S4096 1 := cmpi .slt main_arg1 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  let main_c_9 : IVec S_ 32 := constantI S_ 32 4294963200#32
  let main_v26 : IVec S4096 32 := broadcastInDim S4096 ![] bcast_S_S4096 main_c_9
  let main_v27 : IVec S4096 1 := cmpi .sge main_arg2 main_v26
  let main_c_10 : IVec S_ 32 := constantI S_ 32 4096#32
  let main_v28 : IVec S4096 32 := broadcastInDim S4096 ![] bcast_S_S4096 main_c_10
  let main_v29 : IVec S4096 1 := cmpi .slt main_arg2 main_v28
  let main_v30 : IVec S4096 1 := andi main_v27 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v25 main_v31
  main_v32

def fn {F : FTy → Type} [FloatOps F] (main_arg0 : FVec F S4x2048x4096 .f32) (main_arg1 : IVec S4096 32) (main_arg2 : IVec S4096 32) (main_arg3 : IVec S4096x4096 32) (main_arg4 : FVec F S32x4096 .f32) (main_arg5 : FVec F S32x4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg4
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x4096 .f32 := Host.absf main_arg5
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg1 main_arg2 main_v13 main_v16
-- ==== Kernel.lean ====
abbrev S4x2048x4096 : Shape := ⟨3, ![4, 2048, 4096]⟩
abbrev S4096 : Shape := ⟨1, ![4096]⟩
abbrev S4096x4096 : Shape := ⟨2, ![4096, 4096]⟩
abbrev S32x4096 : Shape := ⟨2, ![32, 4096]⟩
abbrev S8192x4096 : Shape := ⟨2, ![8192, 4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1024x1024 : Shape := ⟨2, ![1024, 1024]⟩
abbrev S8x1024 : Shape := ⟨2, ![8, 1024]⟩
abbrev S8x128x1024 : Shape := ⟨3, ![8, 128, 1024]⟩
abbrev S8x1x1024 : Shape := ⟨3, ![8, 1, 1024]⟩
abbrev S1x1x4096 : Shape := ⟨3, ![1, 1, 4096]⟩

abbrev nBuf : Space → Nat
  | .hbm => 60
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096, .i32⟩
  | .hbm, ⟨2, _⟩ => ⟨S4096, .i32⟩
  | .hbm, ⟨3, _⟩ => ⟨S4096x4096, .i32⟩
  | .hbm, ⟨4, _⟩ => ⟨S32x4096, .f32⟩
  | .hbm, ⟨5, _⟩ => ⟨S32x4096, .f32⟩
  | .hbm, ⟨6, _⟩ => ⟨S4096, .f32⟩
  | .hbm, ⟨7, _⟩ => ⟨S8192x4096, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x4096, .bf16⟩
  | .hbm, ⟨32, _⟩ => ⟨S8192x4096, .f32⟩
  | .hbm, ⟨33, _⟩ => ⟨S4x2048x4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S1, .i32⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S1x1, .i32⟩
  | .hbm, ⟨47, _⟩ => ⟨S4096x1, .i32⟩
  | .hbm, ⟨48, _⟩ => ⟨S4096x1, .i1⟩
  | .hbm, ⟨49, _⟩ => ⟨S4096x1, .i1⟩
  | .hbm, ⟨50, _⟩ => ⟨S_, .i1⟩
  | .hbm, ⟨51, _⟩ => ⟨S4096, .i1⟩
  | .hbm, ⟨52, _⟩ => ⟨S4x2048x4096, .f32⟩
  | .hbm, ⟨53, _⟩ => ⟨S4x2048x4096, .i1⟩
  | .hbm, ⟨54, _⟩ => ⟨S_, .f32⟩
  | .hbm, ⟨55, _⟩ => ⟨S4x2048x4096, .f32⟩
  | .hbm, ⟨56, _⟩ => ⟨S4x2048x4096, .f32⟩
  | .hbm, ⟨57, _⟩ => ⟨S1x1x4096, .f32⟩
  | .hbm, ⟨58, _⟩ => ⟨S4x2048x4096, .f32⟩
  | .hbm, ⟨59, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .i32⟩
  | .local _ .vmem, ⟨3, _⟩ => ⟨S1024x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S8192x4096_1 : S4096.BroadcastsInDim S8192x4096 (![1] : Fin 1 → Fin S8192x4096.rank)
  bcast_S_S8192x4096 : S_.BroadcastsInDim S8192x4096 (![] : Fin 0 → Fin S8192x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S8x128x1024 : S1024x1024.ShapeCasts S8x128x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  shapeCasts_S8192x4096_S4x2048x4096 : S8192x4096.ShapeCasts S4x2048x4096
  bcast_S4096_S4x2048x4096_2 : S4096.BroadcastsInDim S4x2048x4096 (![2] : Fin 1 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S8192x4096_S4096x1_S8192x4096_0_1_n_n_1_1_81921_wf : GatherDims.WF S8192x4096 S4096x1 S8192x4096 [0] [1] [] [1] [] 1 ![8192, 1]
  dot_S1024x1024_S1024x1024_S1024x1024_1_0_0_1_n_n_wf : DotDims.WF S1024x1024 S1024x1024 S1024x1024 [1] [0] [0] [1] [] []
  gather_S4x2048x4096_S4096x1_S4x2048x4096_01_2_n_n_2_1_420481_wf : GatherDims.WF S4x2048x4096 S4096x1 S4x2048x4096 [0, 1] [2] [] [2] [] 1 ![4, 2048, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x4096.size a
  hwx0_2 : ∀ i : grid0.Coords, EltTy.bits .f32 = 32 ∨ (Rect.block (s := S32x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x4096.size a
  hwx0_3 : ∀ i : grid0.Coords, EltTy.bits .f32 = 32 ∨ (Rect.block (s := S32x4096) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def gather_S8192x4096_S4096x1_S8192x4096_0_1_n_n_1_1_81921 : GatherDims S8192x4096 S4096x1 S8192x4096 where
  offsetDims := [0]
  collapsedSliceDims := [1]
  operandBatchingDims := []
  startIndicesBatchingDims := []
  startIndexMap := [1]
  indexVectorDim := 1
  sliceSizes := ![8192, 1]
  wf := gather_S8192x4096_S4096x1_S8192x4096_0_1_n_n_1_1_81921_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S4x2048x4096_S4096x1_S4x2048x4096_01_2_n_n_2_1_420481 : GatherDims S4x2048x4096 S4096x1 S4x2048x4096 where
  offsetDims := [0, 1]
  collapsedSliceDims := [2]
  operandBatchingDims := []
  startIndicesBatchingDims := []
  startIndexMap := [2]
  indexVectorDim := 1
  sliceSizes := ![4, 2048, 1]
  wf := gather_S4x2048x4096_S4096x1_S4x2048x4096_01_2_n_n_2_1_420481_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096 : Shape := ⟨1, ![4096]⟩
abbrev S4096x4096 : Shape := ⟨2, ![4096, 4096]⟩
abbrev S32x4096 : Shape := ⟨2, ![32, 4096]⟩
abbrev S_ : Shape := ⟨0, ![]⟩
abbrev S4096x1 : Shape := ⟨2, ![4096, 1]⟩
abbrev S32x128x4096 : Shape := ⟨3, ![32, 128, 4096]⟩
abbrev S32x1x4096 : Shape := ⟨3, ![32, 1, 4096]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .i32⟩
  | .hbm, ⟨2, _⟩ => ⟨S4096, .i32⟩
  | .hbm, ⟨3, _⟩ => ⟨S4096x4096, .i32⟩
  | .hbm, ⟨4, _⟩ => ⟨S32x4096, .f32⟩
  | .hbm, ⟨5, _⟩ => ⟨S32x4096, .f32⟩
  | .hbm, ⟨6, _⟩ => ⟨S4096, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4x2048x4096, .f32⟩
  | .hbm, ⟨16, _⟩ => ⟨S4096x4096, .f32⟩
  | .hbm, ⟨17, _⟩ => ⟨S32x128x4096, .f32⟩
  | .hbm, ⟨18, _⟩ => ⟨S32x1x4096, .f32⟩
  | .hbm, ⟨19, _⟩ => ⟨S32x128x4096, .f32⟩
  | .hbm, ⟨20, _⟩ => ⟨S32x128x4096, .f32⟩
  | .hbm, ⟨21, _⟩ => ⟨S32x1x4096, .f32⟩
  | .hbm, ⟨22, _⟩ => ⟨S32x128x4096, .f32⟩
  | .hbm, ⟨23, _⟩ => ⟨S32x128x4096, .f32⟩
  | .hbm, ⟨24, _⟩ => ⟨S4096x4096, .f32⟩
  | .hbm, ⟨25, _⟩ => ⟨S4x2048x4096, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4x2048x4096, .f32⟩
  | .hbm, ⟨35, _⟩ => ⟨S1x1x4096, .f32⟩
  | .hbm, ⟨36, _⟩ => ⟨S4x2048x4096, .f32⟩
  | .hbm, ⟨37, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x4096_S32x128x4096 : S4096x4096.ShapeCasts S32x128x4096
  bcast_S32x4096_S32x1x4096_0_2 : S32x4096.BroadcastsInDim S32x1x4096 (![0, 2] : Fin 2 → Fin S32x1x4096.rank)
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4x2048x4096_S4096x1_S4x2048x4096_01_2_n_n_2_1_420481_wf : GatherDims.WF S4x2048x4096 S4096x1 S4x2048x4096 [0, 1] [2] [] [2] [] 1 ![4, 2048, 1]
  dot_S4x2048x4096_S4096x4096_S4x2048x4096_2_0_01_1_n_n_wf : DotDims.WF S4x2048x4096 S4096x4096 S4x2048x4096 [2] [0] [0, 1] [1] [] []

variable [Facts₀]

def gather_S4x2048x4096_S4096x1_S4x2048x4096_01_2_n_n_2_1_420481 : GatherDims S4x2048x4096 S4096x1 S4x2048x4096 where
  offsetDims := [0, 1]
  collapsedSliceDims := [2]
  operandBatchingDims := []
  startIndicesBatchingDims := []
  startIndexMap := [2]
  indexVectorDim := 1
  sliceSizes := ![4, 2048, 1]
  wf := gather_S4x2048x4096_S4096x1_S4x2048x4096_01_2_n_n_2_1_420481_wf
def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Spec.lean ====
/-
  The mathematics of the quantised linear layer, stated once over literal shapes, with no program in sight.

  Inputs: activations `x : [4, 2048, 4096]`, two index vectors `i₁ i₂ : [4096]` (32-bit words), integer weights
  `iw : [4096, 4096]`, and per-group scales and zero points `sc z : [32, 4096]` (one group is 128 consecutive
  input features), a bias `bi : [4096]`.

  * An index word is first WRAPPED (a negative word counts from the end: `i + 4096`) and then CLAMPED into
    `[0, 4095]`; `col` is the column a gather reads for it.
  * The dequantised weight is `wdeq k n = (iw k n − z (k / 128) n) · sc (k / 128) n`.
  * The result is `G (b, s, o) = (∑ k, x (b, s, col (i₁ k)) · wdeq k (col (i₂ o))) + bi o`.

  The one law the certificate needs is a regrouping: a sum over 4096 input features is the sum, accumulated from
  zero, of four sums over 1024 (`sum_blocks`). It holds in any additive commutative monoid, so on the extended
  reals it needs no finiteness.
-/
import Idealize.ShloMosaic.PureOps.Ideal
import Idealize.ShloMosaic.Lib.ValueIdx
import Mathlib.Algebra.BigOperators.Fin

noncomputable section

namespace Cert.QLin

open Idealize.ShloMosaic Idealize.ShloMosaic.ValueIdx

/-- A negative index word counts from the end of an axis of extent 4096. -/
def wrap (i : BitVec 32) : BitVec 32 :=
  Scalar.select (IntOp.cmpi .slt i 0#32) (IntOp.addi i 4096#32) i

/-- The column a clamping gather reads for the index word `i`: the wrapped word, read signed, clamped into `[0, 4095]`. -/
def col (i : BitVec 32) : Fin 4096 := ⟨min (wrap i).toInt.toNat 4095, by omega⟩

/-- The quantisation group of input feature `k`: 128 consecutive features share a scale and a zero point. -/
def grp (k : Fin 4096) : Fin 32 := ⟨k.val / 128, by omega⟩

/-- The dequantised weight `(iw k n − z (k / 128) n) · sc (k / 128) n`. -/
def wdeq (iw : (⟨2, ![4096, 4096]⟩ : Shape).Idx → BitVec 32) (z sc : (⟨2, ![32, 4096]⟩ : Shape).Idx → EReal)
    (k n : Fin 4096) : EReal :=
  ((((iw (ix2 k n)).toInt : ℝ) : EReal) - z (ix2 (grp k) n)) * sc (ix2 (grp k) n)

/-- The matrix function of the fused dequantise-and-multiply: row `r` of `a` against column `n` of the
    dequantised weight. -/
def Kmat (a : (⟨2, ![8192, 4096]⟩ : Shape).Idx → EReal) (iw : (⟨2, ![4096, 4096]⟩ : Shape).Idx → BitVec 32)
    (sc z : (⟨2, ![32, 4096]⟩ : Shape).Idx → EReal) : (⟨2, ![8192, 4096]⟩ : Shape).Idx → EReal :=
  fun j => ∑ k : Fin 4096, a (ix2 (j 0) k) * wdeq iw z sc k (j 1)

/-- The layer's result, index by index. -/
def G (x : (⟨3, ![4, 2048, 4096]⟩ : Shape).Idx → EReal) (i₁ i₂ : (⟨1, ![4096]⟩ : Shape).Idx → BitVec 32)
    (iw : (⟨2, ![4096, 4096]⟩ : Shape).Idx → BitVec 32) (sc z : (⟨2, ![32, 4096]⟩ : Shape).Idx → EReal)
    (bi : (⟨1, ![4096]⟩ : Shape).Idx → EReal) : (⟨3, ![4, 2048, 4096]⟩ : Shape).Idx → EReal :=
  fun j => (∑ k : Fin 4096, x (ix3 (j 0) (j 1) (col (i₁ (ix1 k)))) * wdeq iw z sc k (col (i₂ (ix1 (j 2))))) + bi (ix1 (j 2))

/-- Feature `1024 · kb + kk` of block `kb`. -/
def feat (kb : Fin 4) (kk : Fin 1024) : Fin 4096 := ⟨1024 * kb.val + kk.val, by omega⟩

/-- A sum over the 4096 input features is the sum over four blocks of 1024. -/
theorem sum_feat {M : Type} [AddCommMonoid M] (f : Fin 4096 → M) :
    ∑ k : Fin 4096, f k = ∑ kb : Fin 4, ∑ kk : Fin 1024, f (feat kb kk) := by
  rw [← Finset.sum_product', Finset.univ_product_univ]
  refine (Fintype.sum_equiv (finProdFinEquiv (m := 4) (n := 1024)) (fun p => f (feat p.1 p.2)) f ?_).symm
  intro p
  congr 1
  apply Fin.ext
  show 1024 * p.1.val + p.2.val = p.2.val + 1024 * p.1.val
  omega

/-- The accumulation from zero of the four block sums, in the order the grid visits them, is the whole sum. -/
theorem sum_blocks {M : Type} [AddCommMonoid M] (f : Fin 4096 → M) :
    (((0 + ∑ kk : Fin 1024, f (feat 0 kk)) + ∑ kk : Fin 1024, f (feat 1 kk)) + ∑ kk : Fin 1024, f (feat 2 kk))
        + ∑ kk : Fin 1024, f (feat 3 kk)
      = ∑ k : Fin 4096, f k := by
  rw [sum_feat, Fin.sum_univ_four, zero_add]

end Cert.QLin

end
-- ==== Proof.Index.lean ====
/-
  Index words and the clamping gather, read at an index.

  * `mask_of_range`: an index word `i` with `−4096 ≤ i < 4096` (the two signed compares a range test prints)
    wraps to a word in `[0, 4095]` (the two signed compares an in-bounds mask prints).
  * `gather_last3` / `gather_last2`: a gather along the LAST axis of a rank-3 / rank-2 operand, one start index per
    result column (`[4096, 1]` start indices, the index vector on axis 1), reads the operand at the same leading
    coordinates and at the start index read signed and clamped into `[0, 4095]`.
  * `…_wrapped`: when the start indices are the wrapped words of an index vector, that column is `col`.
-/
import Idealize.ShloMosaic.PureOps.Ideal
import Idealize.ShloMosaic.Lib.ValueIdx
import Idealize.ShloMosaic.Lib.StableHlo.Predicate
import proofs.«402909_j19911468384456_1_alg».proof.Proof.Spec

noncomputable section

namespace Cert.QLin

open Idealize.ShloMosaic Idealize.ShloMosaic.ValueIdx Idealize.ShloMosaic.StableHlo.Predicate

/-- An index word in `[−4096, 4096)` wraps into `[0, 4095]`: the in-bounds mask of a filling take is set. -/
theorem mask_of_range (i : BitVec 32) (h1 : IntOp.cmpi .sge i 4294963200#32 = 1#1) (h2 : IntOp.cmpi .slt i 4096#32 = 1#1) :
    IntOp.cmpi .sge (wrap i) 0#32 = 1#1 ∧ IntOp.cmpi .sle (wrap i) 4095#32 = 1#1 := by
  have e1 : (4294963200#32 : BitVec 32).toInt = -4096 := by decide
  have e2 : (4096#32 : BitVec 32).toInt = 4096 := by decide
  have e3 : (0#32 : BitVec 32).toInt = 0 := by decide
  have e4 : (4095#32 : BitVec 32).toInt = 4095 := by decide
  simp only [IntOp.cmpi, ofBool_eq_one_iff, BitVec.sle, BitVec.slt, decide_eq_true_eq, e1, e2] at h1 h2
  unfold wrap Scalar.select IntOp.addi
  by_cases hneg : IntOp.cmpi .slt i 0#32 = 1#1
  · -- a negative word: adding 4096 does not leave the signed range, so the sum reads as the integer sum
    rw [if_pos (show IntOp.cmpi .slt i 0#32 = 1 from hneg)]
    simp only [IntOp.cmpi, ofBool_eq_one_iff, BitVec.sle, BitVec.slt, decide_eq_true_eq, e3, e4] at hneg ⊢
    have ha : (i + 4096#32).toInt = i.toInt + 4096 := by
      rw [BitVec.toInt_add, e2, Int.bmod_def]
      omega
    rw [ha]; omega
  · -- a non-negative word is kept
    rw [if_neg (show ¬ IntOp.cmpi .slt i 0#32 = 1 from hneg)]
    simp only [IntOp.cmpi, ofBool_eq_one_iff, BitVec.sle, BitVec.slt, decide_eq_true_eq, e3, e4] at hneg ⊢
    omega

/-- The offset coordinate on a kept operand axis is the result's coordinate on the offset axis in its position. -/
private theorem offCoord_eq {s si t : Shape} (d : GatherDims s si t) (j : t.Idx) (a : Fin s.rank) (o : Fin t.rank)
    (ha : a ∈ d.sKept) (ho : d.offsetDims[d.sKept.idxOf a]? = some o) : d.offCoord j a = (j o).val := by
  unfold GatherDims.offCoord
  rw [dif_pos ha]
  exact congrArg (fun z => (j z).val) ((List.getElem_eq_iff _).mpr ho)

/-- The coordinate a result index gives a start-indices axis is its coordinate on the batch axis in that position. -/
private theorem siCoord_val {s si t : Shape} (d : GatherDims s si t) (j : t.Idx) (b : Fin si.rank) (hb : b ∈ d.siKept)
    (o : Fin t.rank) (ho : d.batchDims[d.siKept.idxOf b]? = some o) : (d.siCoord j b hb).val = (j o).val := by
  unfold GatherDims.siCoord
  simp only [Fin.val_cast]
  exact congrArg (fun z => (j z).val) ((List.getElem_eq_iff _).mpr ho)

/-- A gather along the last axis of a `[4, 2048, 4096]` operand at `[4096, 1]` start indices, read at an index. -/
theorem gather_last3 {α : Type}
    (d : GatherDims ⟨3, ![4, 2048, 4096]⟩ ⟨2, ![4096, 1]⟩ ⟨3, ![4, 2048, 4096]⟩)
    (hoff : d.offsetDims = [0, 1]) (hcoll : d.collapsedSliceDims = [2]) (hob : d.operandBatchingDims = [])
    (hsim : d.startIndexMap = [2]) (hivd : d.indexVectorDim = 1)
    (x : (⟨3, ![4, 2048, 4096]⟩ : Shape).Idx → α) (idx : IVec ⟨2, ![4096, 1]⟩ 32)
    (a : Fin 4) (b : Fin 2048) (c : Fin 4096) :
    Host.gather d x idx (ix3 a b c) = x (ix3 a b ⟨min (idx (ixP c)).toInt.toNat 4095, by omega⟩) := by
  -- the collapsed last axis has slice size one; the kept operand axes are the two leading ones, read by the two
  -- offset axes; the result's one batch axis, the last, reads the start indices' rows
  have hsl : d.sliceSizes 2 = 1 := d.slice_collapsed 2 (by rw [hcoll]; exact List.mem_singleton.mpr rfl)
  have hb : ∀ z : Fin 3, z ∉ d.operandBatchingDims := by intro z; rw [hob]; exact List.not_mem_nil
  have hsk : d.sKept = [0, 1] := by
    show Shape.kept _ (d.collapsedSliceDims ++ d.operandBatchingDims) = _
    rw [hcoll, hob]; decide
  have hbd : d.batchDims = [2] := by
    show Shape.kept _ d.offsetDims = _
    rw [hoff]; decide
  have hsik : d.siKept = [0] := by
    show (List.finRange 2).filter (fun z => decide (z.val ≠ d.indexVectorDim)) = _
    rw [hivd]; decide
  unfold Host.gather
  congr 1
  funext ax
  apply Fin.ext
  show d.start (ix3 a b c) idx ax + d.batchCoord (ix3 a b c) ax + d.offCoord (ix3 a b c) ax = _
  rw [GatherDims.batchCoord_eq_zero _ _ _ (hb ax), Nat.add_zero]
  match ax with
  | ⟨0, _⟩ =>
    -- a leading axis: no start, the result's own coordinate
    have hm : (0 : Fin 3) ∉ d.startIndexMap := by rw [hsim]; decide
    have hk : (0 : Fin 3) ∈ d.sKept := by rw [hsk]; decide
    have hs : d.start (ix3 a b c) idx 0 = 0 := by unfold GatherDims.start; rw [dif_neg hm]
    have ho : d.offCoord (ix3 a b c) 0 = a.val := offCoord_eq d _ 0 0 hk (by rw [hsk, hoff]; rfl)
    show d.start (ix3 a b c) idx 0 + d.offCoord (ix3 a b c) 0 = a.val
    rw [hs, ho, Nat.zero_add]
  | ⟨1, _⟩ =>
    have hm : (1 : Fin 3) ∉ d.startIndexMap := by rw [hsim]; decide
    have hk : (1 : Fin 3) ∈ d.sKept := by rw [hsk]; decide
    have hs : d.start (ix3 a b c) idx 1 = 0 := by unfold GatherDims.start; rw [dif_neg hm]
    have ho : d.offCoord (ix3 a b c) 1 = b.val := offCoord_eq d _ 1 1 hk (by rw [hsk, hoff]; rfl)
    show d.start (ix3 a b c) idx 1 + d.offCoord (ix3 a b c) 1 = b.val
    rw [hs, ho, Nat.zero_add]
  | ⟨2, _⟩ =>
    -- the collapsed axis: no offset, the start index of row `c` clamped into `[0, 4096 − 1]`
    have hm : (2 : Fin 3) ∈ d.startIndexMap := by rw [hsim]; exact List.mem_singleton.mpr rfl
    have hk : (2 : Fin 3) ∉ d.sKept := by rw [hsk]; decide
    have ho : d.offCoord (ix3 a b c) 2 = 0 := GatherDims.offCoord_eq_zero _ _ _ hk
    have hsi : d.siIdx (ix3 a b c) ⟨d.startIndexMap.idxOf 2, List.idxOf_lt_length_iff.2 hm⟩ = ixP c := by
      funext z
      match z with
      | ⟨0, _⟩ =>
        unfold GatherDims.siIdx
        rw [dif_neg (by rw [hivd]; exact Nat.zero_ne_one)]
        apply Fin.ext
        rw [siCoord_val d _ _ _ 2 (by rw [hsik, hbd]; rfl)]
      | ⟨1, _⟩ =>
        unfold GatherDims.siIdx
        rw [dif_pos (by rw [hivd])]
        apply Fin.ext
        show List.idxOf (2 : Fin 3) d.startIndexMap = 0
        rw [hsim]; rfl
    show d.start (ix3 a b c) idx 2 + d.offCoord (ix3 a b c) 2 = min (idx (ixP c)).toInt.toNat 4095
    rw [ho, Nat.add_zero]
    unfold GatherDims.start
    rw [dif_pos hm, hsi, hsl]
    rfl

/-- A gather along the last axis of an `[8192, 4096]` operand at `[4096, 1]` start indices, read at an index. -/
theorem gather_last2 {α : Type}
    (d : GatherDims ⟨2, ![8192, 4096]⟩ ⟨2, ![4096, 1]⟩ ⟨2, ![8192, 4096]⟩)
    (hoff : d.offsetDims = [0]) (hcoll : d.collapsedSliceDims = [1]) (hob : d.operandBatchingDims = [])
    (hsim : d.startIndexMap = [1]) (hivd : d.indexVectorDim = 1)
    (x : (⟨2, ![8192, 4096]⟩ : Shape).Idx → α) (idx : IVec ⟨2, ![4096, 1]⟩ 32)
    (r : Fin 8192) (c : Fin 4096) :
    Host.gather d x idx (ix2 r c) = x (ix2 r ⟨min (idx (ixP c)).toInt.toNat 4095, by omega⟩) := by
  -- as for the rank-3 operand, with one leading axis
  have hsl : d.sliceSizes 1 = 1 := d.slice_collapsed 1 (by rw [hcoll]; exact List.mem_singleton.mpr rfl)
  have hb : ∀ z : Fin 2, z ∉ d.operandBatchingDims := by intro z; rw [hob]; exact List.not_mem_nil
  have hsk : d.sKept = [0] := by
    show Shape.kept _ (d.collapsedSliceDims ++ d.operandBatchingDims) = _
    rw [hcoll, hob]; decide
  have hbd : d.batchDims = [1] := by
    show Shape.kept _ d.offsetDims = _
    rw [hoff]; decide
  have hsik : d.siKept = [0] := by
    show (List.finRange 2).filter (fun z => decide (z.val ≠ d.indexVectorDim)) = _
    rw [hivd]; decide
  unfold Host.gather
  congr 1
  funext ax
  apply Fin.ext
  show d.start (ix2 r c) idx ax + d.batchCoord (ix2 r c) ax + d.offCoord (ix2 r c) ax = _
  rw [GatherDims.batchCoord_eq_zero _ _ _ (hb ax), Nat.add_zero]
  match ax with
  | ⟨0, _⟩ =>
    have hm : (0 : Fin 2) ∉ d.startIndexMap := by rw [hsim]; decide
    have hk : (0 : Fin 2) ∈ d.sKept := by rw [hsk]; decide
    have hs : d.start (ix2 r c) idx 0 = 0 := by unfold GatherDims.start; rw [dif_neg hm]
    have ho : d.offCoord (ix2 r c) 0 = r.val := offCoord_eq d _ 0 0 hk (by rw [hsk, hoff]; rfl)
    show d.start (ix2 r c) idx 0 + d.offCoord (ix2 r c) 0 = r.val
    rw [hs, ho, Nat.zero_add]
  | ⟨1, _⟩ =>
    have hm : (1 : Fin 2) ∈ d.startIndexMap := by rw [hsim]; exact List.mem_singleton.mpr rfl
    have hk : (1 : Fin 2) ∉ d.sKept := by rw [hsk]; decide
    have ho : d.offCoord (ix2 r c) 1 = 0 := GatherDims.offCoord_eq_zero _ _ _ hk
    have hsi : d.siIdx (ix2 r c) ⟨d.startIndexMap.idxOf 1, List.idxOf_lt_length_iff.2 hm⟩ = ixP c := by
      funext z
      match z with
      | ⟨0, _⟩ =>
        unfold GatherDims.siIdx
        rw [dif_neg (by rw [hivd]; exact Nat.zero_ne_one)]
        apply Fin.ext
        rw [siCoord_val d _ _ _ 1 (by rw [hsik, hbd]; rfl)]
      | ⟨1, _⟩ =>
        unfold GatherDims.siIdx
        rw [dif_pos (by rw [hivd])]
        apply Fin.ext
        show List.idxOf (1 : Fin 2) d.startIndexMap = 0
        rw [hsim]; rfl
    show d.start (ix2 r c) idx 1 + d.offCoord (ix2 r c) 1 = min (idx (ixP c)).toInt.toNat 4095
    rw [ho, Nat.add_zero]
    unfold GatherDims.start
    rw [dif_pos hm, hsi, hsl]
    rfl

/-- With the wrapped words of an index vector as start indices the column read is `col`. -/
theorem gather_last3_wrapped {α : Type}
    (d : GatherDims ⟨3, ![4, 2048, 4096]⟩ ⟨2, ![4096, 1]⟩ ⟨3, ![4, 2048, 4096]⟩)
    (hoff : d.offsetDims = [0, 1]) (hcoll : d.collapsedSliceDims = [2]) (hob : d.operandBatchingDims = [])
    (hsim : d.startIndexMap = [2]) (hivd : d.indexVectorDim = 1)
    (x : (⟨3, ![4, 2048, 4096]⟩ : Shape).Idx → α) (idx : IVec ⟨2, ![4096, 1]⟩ 32)
    (i : (⟨1, ![4096]⟩ : Shape).Idx → BitVec 32) (hidx : ∀ p : Fin 4096, idx (ixP p) = wrap (i (ix1 p)))
    (a : Fin 4) (b : Fin 2048) (c : Fin 4096) :
    Host.gather d x idx (ix3 a b c) = x (ix3 a b (col (i (ix1 c)))) := by
  rw [gather_last3 d hoff hcoll hob hsim hivd]
  have e : (⟨min (idx (ixP c)).toInt.toNat 4095, by omega⟩ : Fin 4096) = col (i (ix1 c)) :=
    Fin.ext (by show min _ _ = min _ _; rw [hidx])
  rw [e]

/-- The same for the rank-2 operand. -/
theorem gather_last2_wrapped {α : Type}
    (d : GatherDims ⟨2, ![8192, 4096]⟩ ⟨2, ![4096, 1]⟩ ⟨2, ![8192, 4096]⟩)
    (hoff : d.offsetDims = [0]) (hcoll : d.collapsedSliceDims = [1]) (hob : d.operandBatchingDims = [])
    (hsim : d.startIndexMap = [1]) (hivd : d.indexVectorDim = 1)
    (x : (⟨2, ![8192, 4096]⟩ : Shape).Idx → α) (idx : IVec ⟨2, ![4096, 1]⟩ 32)
    (i : (⟨1, ![4096]⟩ : Shape).Idx → BitVec 32) (hidx : ∀ p : Fin 4096, idx (ixP p) = wrap (i (ix1 p)))
    (r : Fin 8192) (c : Fin 4096) :
    Host.gather d x idx (ix2 r c) = x (ix2 r (col (i (ix1 c)))) := by
  rw [gather_last2 d hoff hcoll hob hsim hivd]
  have e : (⟨min (idx (ixP c)).toInt.toNat 4095, by omega⟩ : Fin 4096) = col (i (ix1 c)) :=
    Fin.ext (by show min _ _ = min _ _; rw [hidx])
  rw [e]

end Cert.QLin

end
-- ==== Proof.RefValue.lean ====
/-
  The reference computes `G`.

  Its program gathers the input features (wrapped, clamped start indices), dequantises the whole weight
  (`(iw − z) · sc` with the group's zero point and scale broadcast over its 128 rows), contracts the two over the
  4096 input features, gathers the output features the same way and adds the bias. Read one operation at a time
  at an index `(a, b, c)`, that is `G`'s formula: the outer gather moves the column to `col (i₂ c)`, the contraction
  is the sum over `k`, the inner gather moves `k` to `col (i₁ k)`, and row `k` of the reshaped `[32, 128, 4096]`
  weight is group `k / 128`.
-/
import proofs.«402909_j19911468384456_1_alg».proof.Proof.Gen.ReferenceIdeal.Read
import proofs.«402909_j19911468384456_1_alg».proof.Proof.Spec
import proofs.«402909_j19911468384456_1_alg».proof.Proof.Index

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx Cert.QLin
open Idealize.ShloMosaic.StableHlo.Predicate (ixP)

/-! ## The start indices of the two gathers are the wrapped index words -/

/-- The inner gather's start index for column `p` is the wrapped word `i₁ p`. -/
theorem v5_wrap (x1 : (⟨S4096, .i32⟩ : BufTy).Contents (Elt Ideal)) (p : Fin 4096) :
    val_main_v5 (F := Ideal) x1 (ixP p) = wrap (x1 (ix1 p)) := by
  have e : idx_main_v5 (ixP p) = ix1 p := funext fun d => match d with | ⟨0, _⟩ => rfl
  rw [val_main_v5_apply, e, val_main_v4_apply, val_main_v1_apply, val_main_v0_apply, val_main_c_apply,
    val_main_v3_apply, val_main_v2_apply, val_main_c_0_apply]
  rfl

/-- The outer gather's start index for column `p` is the wrapped word `i₂ p`. -/
theorem v22_wrap (x2 : (⟨S4096, .i32⟩ : BufTy).Contents (Elt Ideal)) (p : Fin 4096) :
    val_main_v22 (F := Ideal) x2 (ixP p) = wrap (x2 (ix1 p)) := by
  have e : idx_main_v22 (ixP p) = ix1 p := funext fun d => match d with | ⟨0, _⟩ => rfl
  rw [val_main_v22_apply, e, val_main_v21_apply, val_main_v18_apply, val_main_v17_apply, val_main_c_1_apply,
    val_main_v20_apply, val_main_v19_apply, val_main_c_2_apply]
  rfl

/-! ## The gathered activations -/

/-- The inner gather reads the activations at column `col (i₁ k)`. -/
theorem v6_at (x0 : (⟨S4x2048x4096, .f32⟩ : BufTy).Contents (Elt Ideal))
    (x1 : (⟨S4096, .i32⟩ : BufTy).Contents (Elt Ideal)) (a : Fin 4) (b : Fin 2048) (k : Fin 4096) :
    val_main_v6 (F := Ideal) x0 x1 (ix3 a b k) = x0 (ix3 a b (col (x1 (ix1 k)))) := by
  unfold val_main_v6
  exact gather_last3_wrapped _ rfl rfl rfl rfl rfl x0 _ x1 (v5_wrap x1) a b k

/-! ## The dequantised weight -/

/-- Row `k` of the `[4096, 4096]` weight is row `k % 128` of group `k / 128` of the `[32, 128, 4096]` one. -/
theorem idx15_at (k n : Fin 4096) :
    idx_main_v15 (ix2 k n) = ix3 (grp k) (⟨k.val % 128, Nat.mod_lt _ (by decide)⟩ : Fin 128) n := by
  funext d
  apply Fin.ext
  have hk := k.isLt
  have hn := n.isLt
  match d with
  | ⟨0, _⟩ => show (k.val * 4096 + n.val) / 524288 = k.val / 128; omega
  | ⟨1, _⟩ => show (k.val * 4096 + n.val) / 4096 % 128 = k.val % 128; omega
  | ⟨2, _⟩ => show (k.val * 4096 + n.val) % 4096 = n.val; omega

/-- … and back. -/
theorem idx8_at (k n : Fin 4096) :
    idx_main_v8 (ix3 (grp k) (⟨k.val % 128, Nat.mod_lt _ (by decide)⟩ : Fin 128) n) = ix2 k n := by
  funext d
  apply Fin.ext
  have hk := k.isLt
  have hn := n.isLt
  match d with
  | ⟨0, _⟩ => show ((k.val / 128 * 128 + k.val % 128) * 4096 + n.val) / 4096 = k.val; omega
  | ⟨1, _⟩ => show ((k.val / 128 * 128 + k.val % 128) * 4096 + n.val) % 4096 = n.val; omega

/-- A per-group array broadcast over the group's 128 rows is read at the group. -/
theorem idx9_10_at (g : Fin 32) (r : Fin 128) (n : Fin 4096) :
    idx_main_v9 (idx_main_v10 (ix3 g r n)) = ix2 g n :=
  funext fun d => match d with | ⟨0, _⟩ => rfl | ⟨1, _⟩ => rfl

theorem idx12_13_at (g : Fin 32) (r : Fin 128) (n : Fin 4096) :
    idx_main_v12 (idx_main_v13 (ix3 g r n)) = ix2 g n :=
  funext fun d => match d with | ⟨0, _⟩ => rfl | ⟨1, _⟩ => rfl

/-- The reference's dequantised weight at `(k, n)` is `wdeq`: zero points are argument 5, scales argument 4. -/
theorem v15_at (x3 : (⟨S4096x4096, .i32⟩ : BufTy).Contents (Elt Ideal))
    (x4 x5 : (⟨S32x4096, .f32⟩ : BufTy).Contents (Elt Ideal)) (k n : Fin 4096) :
    val_main_v15 (F := Ideal) x3 x4 x5 (ix2 k n) = wdeq x3 x5 x4 k n := by
  rw [val_main_v15_apply, idx15_at, val_main_v14_apply, val_main_v11_apply, val_main_v8_apply, idx8_at,
    val_main_v7_apply, val_main_v10_apply, val_main_v9_apply, idx9_10_at, val_main_v13_apply, val_main_v12_apply,
    idx12_13_at]
  rfl

/-! ## The contraction, the outer gather and the bias -/

/-- The contraction at `(a, b, n)`: the sum over the input features of gathered activation times dequantised weight. -/
theorem v16_at (x0 : (⟨S4x2048x4096, .f32⟩ : BufTy).Contents (Elt Ideal))
    (x1 : (⟨S4096, .i32⟩ : BufTy).Contents (Elt Ideal)) (x3 : (⟨S4096x4096, .i32⟩ : BufTy).Contents (Elt Ideal))
    (x4 x5 : (⟨S32x4096, .f32⟩ : BufTy).Contents (Elt Ideal)) (a : Fin 4) (b : Fin 2048) (n : Fin 4096) :
    val_main_v16 (F := Ideal) x0 x1 x3 x4 x5 (ix3 a b n)
      = ∑ k : Fin 4096, x0 (ix3 a b (col (x1 (ix1 k)))) * wdeq x3 x5 x4 k n := by
  rw [val_main_v16_apply]
  refine Finset.sum_congr rfl fun k _ => ?_
  have el : lidx_main_v16 (ix3 a b n) k = ix3 a b k :=
    funext fun d => match d with | ⟨0, _⟩ => rfl | ⟨1, _⟩ => rfl | ⟨2, _⟩ => rfl
  have er : ridx_main_v16 (ix3 a b n) k = ix2 k n :=
    funext fun d => match d with | ⟨0, _⟩ => rfl | ⟨1, _⟩ => rfl
  rw [el, er, v6_at, v15_at]

/-- The outer gather reads the contraction at column `col (i₂ c)`. -/
theorem v23_at (x0 : (⟨S4x2048x4096, .f32⟩ : BufTy).Contents (Elt Ideal))
    (x1 x2 : (⟨S4096, .i32⟩ : BufTy).Contents (Elt Ideal)) (x3 : (⟨S4096x4096, .i32⟩ : BufTy).Contents (Elt Ideal))
    (x4 x5 : (⟨S32x4096, .f32⟩ : BufTy).Contents (Elt Ideal)) (a : Fin 4) (b : Fin 2048) (c : Fin 4096) :
    val_main_v23 (F := Ideal) x0 x1 x2 x3 x4 x5 (ix3 a b c)
      = ∑ k : Fin 4096, x0 (ix3 a b (col (x1 (ix1 k)))) * wdeq x3 x5 x4 k (col (x2 (ix1 c))) := by
  unfold val_main_v23
  rw [gather_last3_wrapped _ rfl rfl rfl rfl rfl _ _ x2 (v22_wrap x2) a b c, v16_at]

/-- The bias, broadcast over the leading axes, is read at the column. -/
theorem v25_at (x6 : (⟨S4096, .f32⟩ : BufTy).Contents (Elt Ideal)) (a : Fin 4) (b : Fin 2048) (c : Fin 4096) :
    val_main_v25 (F := Ideal) x6 (ix3 a b c) = x6 (ix1 c) := by
  have e : idx_main_v24 (idx_main_v25 (ix3 a b c)) = ix1 c := funext fun d => match d with | ⟨0, _⟩ => rfl
  rw [val_main_v25_apply, val_main_v24_apply, e]

/-- The reference's last stage, as a function of the seven arguments, is `G`. -/
theorem val_main_v26_eq_G (x0 : (⟨S4x2048x4096, .f32⟩ : BufTy).Contents (Elt Ideal))
    (x1 x2 : (⟨S4096, .i32⟩ : BufTy).Contents (Elt Ideal)) (x3 : (⟨S4096x4096, .i32⟩ : BufTy).Contents (Elt Ideal))
    (x4 x5 : (⟨S32x4096, .f32⟩ : BufTy).Contents (Elt Ideal)) (x6 : (⟨S4096, .f32⟩ : BufTy).Contents (Elt Ideal)) :
    val_main_v26 (F := Ideal) x0 x1 x2 x3 x4 x5 x6 = G x0 x1 x2 x3 x4 x5 x6 := by
  funext j
  obtain ⟨a, b, c, rfl⟩ : ∃ (a : Fin 4) (b : Fin 2048) (c : Fin 4096), j = ix3 a b c := ⟨j 0, j 1, j 2, eq_ix3 j⟩
  rw [val_main_v26_apply, v23_at, v25_at]
  rfl

/-- Every weakly fair execution of the reference terminates with its result at `G` of the argument arrays and the
    arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨by rw [(h c).1, val_main_v26_eq, val_main_v26_eq_G], (h c).2⟩)
    (Cert.ReferenceIdeal.Value.run (F := Ideal) m ρ)

end Cert.ReferenceIdeal.RefValue

end
-- ==== Proof.KPieces.lean ====
/-
  What one grid point of the kernel leaves behind, as values.

  The body keeps an f32 accumulator in a scratch block. At a point with `k = 0` it first stores the zero block,
  then (at every point) stores `acc + x_blk · w_blk` into the scratch, where `w_blk = (iw_blk − z_blk) · sc_blk` is
  the dequantised weight block (each of the 8 groups' zero point and scale broadcast over its 128 rows); at a point
  with `k = 3` it copies the scratch into the output block. So with `upd acc` the one update:
    case A (k = 0)      leaves `upd 0` in the scratch,
    case B (k = 1, 2)   leaves `upd prev` in the scratch,
    case C (k = 3)      leaves `upd prev` in the scratch AND in the output block.
  Read at an entry `(p, q)` over the extended reals, `upd acc (p, q) = acc (p, q) + ∑ kk, x (p, kk) · w (kk, q)`.
-/
import proofs.«402909_j19911468384456_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KValue

open Cert.KernelIdeal Cert.KernelIdeal.Gen
open Idealize.ShloMosaic Idealize.ShloMosaic.TcCoe Idealize.SL.Sem Idealize.ShloMosaic.ValueIdx

variable {F : FTy → Type} [FloatOps F]

theorem hz : (![0, 0] : Fin 2 → Nat) = fun _ => 0 := funext fun a => by fin_cases a <;> rfl

/-- Case A (the first point of a run of four): the scratch ends at the update of the zero block. -/
theorem sout_A (c : Dev nD) (i : grid0.Coords) (arg3 : Memref sig .tc .vmem S1024x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1024x1024 .i32) (x2 : Vec F S8x1024 .f32) (x3 : Vec F S8x1024 .f32) :
    sout0_A_0 c i arg3 harg3 arg4 harg4 arg5 harg5 arg6 harg6 arg7 harg7 arg8 harg8 hc0 hc1 x0 x1 x2 x3 = k0_pay2 x1 x2 x3 (k0_pay1 (F := F)) x0 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg8.read_unread, harg3.read_unread, harg4.read_unread, harg5.read_unread, harg6.read_unread,
    View.ld_unit_zero (S := S1024x1024) hz, View.ld_unit_zero (S := S8x1024) hz]

/-- Case B (the two middle points): the scratch ends at the update of what the point before left. -/
theorem sout_B (c : Dev nD) (i : grid0.Coords) (arg3 : Memref sig .tc .vmem S1024x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1024x1024 .i32) (x2 : Vec F S8x1024 .f32) (x3 : Vec F S8x1024 .f32) (xs0 : Vec F S1024x1024 .f32) :
    sout0_B_0 c i arg3 harg3 arg4 harg4 arg5 harg5 arg6 harg6 arg7 harg7 arg8 harg8 hc0 hc1 x0 x1 x2 x3 xs0 = k0_pay2 x1 x2 x3 xs0 x0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg8.read_unread, harg3.read_unread, harg4.read_unread, harg5.read_unread, harg6.read_unread,
    View.ld_unit_zero (S := S1024x1024) hz, View.ld_unit_zero (S := S8x1024) hz]

/-- Case C (the last point): the scratch ends at the update of what the point before left, -/
theorem sout_C (c : Dev nD) (i : grid0.Coords) (arg3 : Memref sig .tc .vmem S1024x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .i32) (x2 : Vec F S8x1024 .f32) (x3 : Vec F S8x1024 .f32) (xs0 : Vec F S1024x1024 .f32) :
    sout0_C_0 c i arg3 harg3 arg4 harg4 arg5 harg5 arg6 harg6 arg7 harg7 arg8 harg8 hc0 hc1 x0 x1 x2 x3 xs0 = k0_pay2 x1 x2 x3 xs0 x0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg8.read_unread, harg3.read_unread, harg4.read_unread, harg5.read_unread, harg6.read_unread,
    View.ld_unit_zero (S := S1024x1024) hz, View.ld_unit_zero (S := S8x1024) hz]

/-- and the output block at the same value (the scratch read back after the update). -/
theorem out_C (c : Dev nD) (i : grid0.Coords) (arg3 : Memref sig .tc .vmem S1024x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .i32) (x2 : Vec F S8x1024 .f32) (x3 : Vec F S8x1024 .f32) (xs0 : Vec F S1024x1024 .f32) :
    out0_C_4 c i arg3 harg3 arg4 harg4 arg5 harg5 arg6 harg6 arg7 harg7 arg8 harg8 hc0 hc1 x0 x1 x2 x3 xs0 = k0_pay2 x1 x2 x3 xs0 x0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readCov_unit_zero (S := S1024x1024) _ hz, View.readAt_eq_ld, harg8.read_unread, harg3.read_unread, harg4.read_unread, harg5.read_unread, harg6.read_unread,
    View.ld_unit_zero (S := S1024x1024) hz, View.ld_unit_zero (S := S8x1024) hz]

/-! ## The two payloads read at an entry, over the extended reals

The layout steps first: the reshapes between `[1024, 1024]` and `[8, 128, 1024]` keep the row-major position, so row
`kk` of the block is row `kk % 128` of group `kk / 128`; a group's one row of zero points (or scales) is broadcast over
the group's 128 rows. -/

section Layout
variable {α : Type}

/-- A `[1024, 1024]` block viewed `[8, 128, 1024]` reads, at `(kk / 128, kk % 128, q)`, the block at `(kk, q)`. -/
theorem cast3_apply (x : S1024x1024.Idx → α) (h : S1024x1024.ShapeCasts S8x128x1024) (kk q : Fin 1024) :
    shapeCast S8x128x1024 x h (ix3 (⟨kk.val / 128, by omega⟩ : Fin 8) (⟨kk.val % 128, by omega⟩ : Fin 128) q) = x (ix2 kk q) :=
  shapeCast_apply x h _ _ (by
    rw [Shape.rowMajor_val_two, Shape.rowMajor_val_three]
    show kk.val * 1024 + q.val = ((kk.val / 128) * 128 + kk.val % 128) * 1024 + q.val
    omega)

/-- The `[8, 128, 1024]` array viewed `[1024, 1024]` reads, at `(kk, q)`, the array at `(kk / 128, kk % 128, q)`. -/
theorem cast2_apply (y : S8x128x1024.Idx → α) (h : S8x128x1024.ShapeCasts S1024x1024) (kk q : Fin 1024) :
    shapeCast S1024x1024 y h (ix2 kk q) = y (ix3 (⟨kk.val / 128, by omega⟩ : Fin 8) (⟨kk.val % 128, by omega⟩ : Fin 128) q) :=
  shapeCast_apply y h _ _ (by
    rw [Shape.rowMajor_val_three, Shape.rowMajor_val_two]
    show ((kk.val / 128) * 128 + kk.val % 128) * 1024 + q.val = kk.val * 1024 + q.val
    omega)

/-- An `[8, 1024]` block viewed `[8, 1, 1024]` reads, at `(g, u, q)`, the block at `(g, q)`. -/
theorem unit_apply (x : S8x1024.Idx → α) (h : S8x1024.ShapeCasts S8x1x1024) (g : Fin 8) (u : Fin 1) (q : Fin 1024) :
    shapeCast S8x1x1024 x h (ix3 g u q) = x (ix2 g q) :=
  shapeCast_apply x h _ _ (by
    have hu : u.val = 0 := by omega
    rw [Shape.rowMajor_val_two, Shape.rowMajor_val_three]
    show g.val * 1024 + q.val = (g.val * 1 + u.val) * 1024 + q.val
    omega)

/-- One row per group broadcast over the group's 128 rows reads, at `(g, r, q)`, the row at `(g, 0, q)`. -/
theorem bcast_apply (y : S8x1x1024.Idx → α) (h : S8x1x1024.Broadcasts S8x128x1024) (g : Fin 8) (r : Fin 128) (q : Fin 1024) :
    broadcastTo S8x128x1024 y h (ix3 g r q) = y (ix3 g (0 : Fin 1) q) :=
  broadcastTo_apply y h _ _ fun a => match a with
    | ⟨0, _⟩ => by show g.val = if (8 : Nat) = 1 then 0 else g.val; rfl
    | ⟨1, _⟩ => by show (0 : Nat) = if (1 : Nat) = 1 then 0 else r.val; rfl
    | ⟨2, _⟩ => by show q.val = if (1024 : Nat) = 1 then 0 else q.val; rfl

end Layout

/-! The kernel's matmul: row `p` of the left block against column `q` of the right. -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matmul into the zero block, at an entry: the sum over the contraction coordinate. -/
theorem mm_apply (lhs rhs : FVec Ideal S1024x1024 .bf16) (p q : Fin 1024) :
    matmul dot_S1024x1024_S1024x1024_S1024x1024_1_0_0_1_n_n none lhs rhs (constant S1024x1024 .f32 0x00000000#32) (ix2 p q)
      = ∑ kk : Fin 1024, (lhs (ix2 p kk) : EReal) * (rhs (ix2 kk q) : EReal) := by
  refine (Ideal.matmul_constant_zero_apply dot_S1024x1024_S1024x1024_S1024x1024_1_0_0_1_n_n none lhs rhs (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The zero block, at an entry, over the extended reals. -/
theorem pay1_apply (p q : Fin 1024) : k0_pay1 (F := Ideal) (ix2 p q) = (0 : EReal) := by
  unfold k0_pay1
  refine (congrFun (shapeCast_self _ _) (ix2 p q)).trans ?_
  exact Ideal.ofBits_zero_f32

/-- The dequantised weight block at an entry `(kk, q)`: the integer weight less its group's zero point, times its
    group's scale (the group of row `kk` is `kk / 128`); the narrowing to bf16 is the identity on the extended reals. -/
theorem deq_apply (v3 : Vec Ideal S1024x1024 .i32) (v6 v8 : Vec Ideal S8x1024 .f32) (kk q : Fin 1024) :
    (truncf .bf16 (shapeCast S1024x1024
        (mulf (subf (shapeCast S8x128x1024 (sitofp (F := Ideal) .f32 v3) shapeCasts_S1024x1024_S8x128x1024)
                (broadcastTo S8x128x1024 (shapeCast S8x1x1024 v8 shapeCasts_S8x1024_S8x1x1024) broadcasts_S8x1x1024_S8x128x1024))
          (broadcastTo S8x128x1024 (shapeCast S8x1x1024 v6 shapeCasts_S8x1024_S8x1x1024) broadcasts_S8x1x1024_S8x128x1024))
        shapeCasts_S8x128x1024_S1024x1024) bitsLt_bf16_f32 : FVec Ideal S1024x1024 .bf16) (ix2 kk q)
      = ((((v3 (ix2 kk q) : BitVec 32).toInt : ℝ) : EReal) - (v8 (ix2 (⟨kk.val / 128, by omega⟩ : Fin 8) q) : EReal))
          * (v6 (ix2 (⟨kk.val / 128, by omega⟩ : Fin 8) q) : EReal) := by
  refine (truncf_apply _ bitsLt_bf16_f32 (ix2 kk q)).trans ?_
  refine (cast2_apply _ shapeCasts_S8x128x1024_S1024x1024 kk q).trans ?_
  refine congrArg₂ (· * ·) (congrArg₂ (· - ·) ?_ ?_) ?_
  · exact (cast3_apply (sitofp (F := Ideal) .f32 v3) shapeCasts_S1024x1024_S8x128x1024 kk q)
  · exact (bcast_apply _ broadcasts_S8x1x1024_S8x128x1024 _ _ q).trans (unit_apply v8 shapeCasts_S8x1024_S8x1x1024 _ _ q)
  · exact (bcast_apply _ broadcasts_S8x1x1024_S8x128x1024 _ _ q).trans (unit_apply v6 shapeCasts_S8x1024_S8x1x1024 _ _ q)

/-- The update at an entry, over the extended reals: the accumulator's entry plus row `p` of the activation block
    against column `q` of the dequantised weight block. -/
theorem pay2_apply (v3 : Vec Ideal S1024x1024 .i32) (v6 v8 : Vec Ideal S8x1024 .f32) (v16 : Vec Ideal S1024x1024 .f32)
    (v17 : Vec Ideal S1024x1024 .bf16) (p q : Fin 1024) :
    k0_pay2 (F := Ideal) v3 v6 v8 v16 v17 (ix2 p q)
      = (v16 (ix2 p q) : EReal) + ∑ kk : Fin 1024, (v17 (ix2 p kk) : EReal)
          * (((((v3 (ix2 kk q) : BitVec 32).toInt : ℝ) : EReal) - (v8 (ix2 (⟨kk.val / 128, by omega⟩ : Fin 8) q) : EReal))
              * (v6 (ix2 (⟨kk.val / 128, by omega⟩ : Fin 8) q) : EReal)) := by
  unfold k0_pay2
  refine (congrFun (shapeCast_self _ _) (ix2 p q)).trans ?_
  refine congrArg (fun t => (v16 (ix2 p q) : EReal) + t) ?_
  refine (mm_apply _ _ p q).trans ?_
  refine Finset.sum_congr rfl fun kk _ => ?_
  refine congrArg₂ (· * ·) ?_ (deq_apply v3 v6 v8 kk q)
  exact congrFun (shapeCast_self v17 _) (ix2 p kk)

end Cert.KernelIdeal.KValue

end
-- ==== Proof.KBlocks.lean ====
/-
  The arrays the fused kernel stages and the blocks its body sees, by name and at an index.

  The grid is `(i, j, k) ∈ 8 × 4 × 4`, visited with `k` fastest, so point `t` has `i = t / 16`, `j = t / 4 % 4`,
  `k = t % 4`. At `(i, j, k)` the body sees the `1024 × 1024` block `(i, k)` of the activations, block `(k, j)` of
  the integer weights and the `8 × 1024` blocks `(k, j)` of the scales and zero points (8 groups of 128 rows).
  A block's entry `(p, q)` is the array's entry at (block index × block size + the coordinate inside the block).
-/
import proofs.«402909_j19911468384456_1_alg».proof.Proof.Gen.KernelIdeal.Frame
import proofs.«402909_j19911468384456_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The four arrays the region stages, as it finds them, at their literal types. -/
abbrev xarr (c : Dev nD) : (⟨2, ![8192, 4096]⟩ : Shape).Idx → EReal := V m c main_v2
abbrev warr (c : Dev nD) : (⟨2, ![4096, 4096]⟩ : Shape).Idx → BitVec 32 := V m c main_arg3
abbrev sarr (c : Dev nD) : (⟨2, ![32, 4096]⟩ : Shape).Idx → EReal := V m c main_arg4
abbrev zarr (c : Dev nD) : (⟨2, ![32, 4096]⟩ : Shape).Idx → EReal := V m c main_arg5

/-- What the output array holds after the region: the matrix function of the staged arrays. -/
abbrev result (c : Dev nD) : Buf (Elt Ideal) ((c : Thread nD τ).loc main_v3) :=
  Cert.QLin.Kmat (xarr m c) (warr m c) (sarr m c) (zarr m c)

/-- The blocks at point `t`, at their literal types. -/
abbrev xblk (c : Dev nD) (t : Fin cfg0.N) : Vec Ideal S1024x1024 .bf16 := iblk m c 0 t
abbrev wblk (c : Dev nD) (t : Fin cfg0.N) : Vec Ideal S1024x1024 .i32 := iblk m c 1 t
abbrev sblk (c : Dev nD) (t : Fin cfg0.N) : Vec Ideal S8x1024 .f32 := iblk m c 2 t
abbrev zblk (c : Dev nD) (t : Fin cfg0.N) : Vec Ideal S8x1024 .f32 := iblk m c 3 t

/-- The grid's points, decided once: window 0 sits at block `(t / 16, t % 4)`. -/
theorem index_win0 : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
/-- Window 1 (the integer weights) sits at block `(t % 4, t / 4 % 4)`. -/
theorem index_win1 : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
/-- Window 2 (the scales) sits at block `(t % 4, t / 4 % 4)`. -/
theorem index_win2 : ∀ t : Fin cfg0.N, win0_2.index t (0 : Fin 2) = t.val % 4 ∧ win0_2.index t (1 : Fin 2) = t.val / 4 % 4 :=
  (by decide +kernel : ∀ t : Fin grid0.N, win0_2.index t (0 : Fin 2) = t.val % 4 ∧ win0_2.index t (1 : Fin 2) = t.val / 4 % 4)
/-- Window 3 (the zero points) sits at block `(t % 4, t / 4 % 4)`. -/
theorem index_win3 : ∀ t : Fin cfg0.N, win0_3.index t (0 : Fin 2) = t.val % 4 ∧ win0_3.index t (1 : Fin 2) = t.val / 4 % 4 :=
  (by decide +kernel : ∀ t : Fin grid0.N, win0_3.index t (0 : Fin 2) = t.val % 4 ∧ win0_3.index t (1 : Fin 2) = t.val / 4 % 4)

/-- The activation block at point `t` is block `(t / 16, t % 4)` of the activations. -/
theorem xblk_apply (c : Dev nD) (t : Fin cfg0.N) (p q : Fin 1024) :
    xblk m c t (ix2 p q)
      = xarr m c (ix2 (⟨1024 * (t.val / 16) + p.val, by have := t.isLt; have : cfg0.N = 128 := N_0; omega⟩ : Fin 8192)
                      (⟨1024 * (t.val % 4) + q.val, by omega⟩ : Fin 4096)) := by
  unfold xblk iblk
  rw [View.read_apply]
  show V m c main_v2 _ = V m c main_v2 _
  congr 1
  funext a
  apply Fin.ext
  match a with
  | ⟨0, _⟩ => show win0_0.index t 0 * 1024 + 1 * p.val = 1024 * (t.val / 16) + p.val; rw [(index_win0 t).1]; omega
  | ⟨1, _⟩ => show win0_0.index t 1 * 1024 + 1 * q.val = 1024 * (t.val % 4) + q.val; rw [(index_win0 t).2]; omega

/-- The weight block at point `t` is block `(t % 4, t / 4 % 4)` of the integer weights. -/
theorem wblk_apply (c : Dev nD) (t : Fin cfg0.N) (p q : Fin 1024) :
    wblk m c t (ix2 p q)
      = warr m c (ix2 (⟨1024 * (t.val % 4) + p.val, by omega⟩ : Fin 4096) (⟨1024 * (t.val / 4 % 4) + q.val, by omega⟩ : Fin 4096)) := by
  unfold wblk iblk
  rw [View.read_apply]
  show V m c main_arg3 _ = V m c main_arg3 _
  congr 1
  funext a
  apply Fin.ext
  match a with
  | ⟨0, _⟩ => show win0_1.index t 0 * 1024 + 1 * p.val = 1024 * (t.val % 4) + p.val; rw [(index_win1 t).1]; omega
  | ⟨1, _⟩ => show win0_1.index t 1 * 1024 + 1 * q.val = 1024 * (t.val / 4 % 4) + q.val; rw [(index_win1 t).2]; omega

/-- The scale block at point `t`: groups `8 (t % 4) … 8 (t % 4) + 7`, columns of block `t / 4 % 4`. -/
theorem sblk_apply (c : Dev nD) (t : Fin cfg0.N) (g : Fin 8) (q : Fin 1024) :
    sblk m c t (ix2 g q)
      = sarr m c (ix2 (⟨8 * (t.val % 4) + g.val, by omega⟩ : Fin 32) (⟨1024 * (t.val / 4 % 4) + q.val, by omega⟩ : Fin 4096)) := by
  unfold sblk iblk
  rw [View.read_apply]
  show V m c main_arg4 _ = V m c main_arg4 _
  congr 1
  funext a
  apply Fin.ext
  match a with
  | ⟨0, _⟩ => show win0_2.index t 0 * 8 + 1 * g.val = 8 * (t.val % 4) + g.val; rw [(index_win2 t).1]; omega
  | ⟨1, _⟩ => show win0_2.index t 1 * 1024 + 1 * q.val = 1024 * (t.val / 4 % 4) + q.val; rw [(index_win2 t).2]; omega

/-- The zero-point block at point `t`, likewise. -/
theorem zblk_apply (c : Dev nD) (t : Fin cfg0.N) (g : Fin 8) (q : Fin 1024) :
    zblk m c t (ix2 g q)
      = zarr m c (ix2 (⟨8 * (t.val % 4) + g.val, by omega⟩ : Fin 32) (⟨1024 * (t.val / 4 % 4) + q.val, by omega⟩ : Fin 4096)) := by
  unfold zblk iblk
  rw [View.read_apply]
  show V m c main_arg5 _ = V m c main_arg5 _
  congr 1
  funext a
  apply Fin.ext
  match a with
  | ⟨0, _⟩ => show win0_3.index t 0 * 8 + 1 * g.val = 8 * (t.val % 4) + g.val; rw [(index_win3 t).1]; omega
  | ⟨1, _⟩ => show win0_3.index t 1 * 1024 + 1 * q.val = 1024 * (t.val / 4 % 4) + q.val; rw [(index_win3 t).2]; omega

end Cert.KernelIdeal.KValue

end
-- ==== Proof.KAccum.lean ====
/-
  The output block at a write-back point.

  Over a run of four grid points with the same `(i, j)` (`k = 0, 1, 2, 3`) the scratch accumulates, from the zero
  block, the four partial products `x_blk(i, k) · w_blk(k, j)`; at `k = 3` the body copies the scratch into the
  output block. Entry `(p, q)` of that block is therefore
  `(((0 + S₀) + S₁) + S₂) + S₃` with `S_k = ∑ kk, x (1024 i + p, 1024 k + kk) · w (1024 k + kk, 1024 j + q)`,
  the whole contraction over the 4096 input features regrouped in four blocks: entry
  `(1024 i + p, 1024 j + q)` of the matrix function `Kmat`. Row `1024 k + kk` of the weight lies in group
  `8 k + kk / 128`, which is where the block's scale and zero-point rows come from.
-/
import proofs.«402909_j19911468384456_1_alg».proof.Proof.KPieces
import proofs.«402909_j19911468384456_1_alg».proof.Proof.KBlocks
import proofs.«402909_j19911468384456_1_alg».proof.Proof.Spec

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

namespace Accum

/-- The grid point before `t`. -/
def prev (t : Fin cfg0.N) : Fin cfg0.N := ⟨t.val - 1, Nat.lt_of_le_of_lt (Nat.sub_le _ _) t.isLt⟩

theorem prev_val (t : Fin cfg0.N) : (prev t).val = t.val - 1 := rfl

/-! ## The scratch and the output block after one point, as one update of what the point before left -/

/-- At the first point of a run (`t % 4 = 0`) the scratch ends at the update of the zero block. -/
theorem scr_A (c : Dev nD) (t : Fin cfg0.N) (h0 : t.val % 4 = 0) :
    (outsAt0 m c t.val t.isLt).2 = k0_pay2 (wblk m c t) (sblk m c t) (zblk m c t) (k0_pay1 (F := Ideal)) (xblk m c t) := by
  have h1 : ¬ t.val % 4 = 3 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At a middle point (`t % 4 = 1, 2`) the scratch ends at the update of what the point before left in it. -/
theorem scr_B (c : Dev nD) (t : Fin cfg0.N) (h0 : ¬ t.val % 4 = 0) (h1 : ¬ t.val % 4 = 3) :
    (outsAt0 m c t.val t.isLt).2 = k0_pay2 (wblk m c t) (sblk m c t) (zblk m c t)
      ((outsAt0 m c (t.val - 1) (Nat.lt_of_le_of_lt (Nat.sub_le _ _) t.isLt)).2) (xblk m c t) := by
  rw [outsAt0_B m c t h0 h1]
  dsimp only
  exact sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last point (`t % 4 = 3`) the output block ends at the update of what the point before left in the scratch. -/
theorem out_Cpt (c : Dev nD) (t : Fin cfg0.N) (h1 : t.val % 4 = 3) :
    (outsAt0 m c t.val t.isLt).1 = k0_pay2 (wblk m c t) (sblk m c t) (zblk m c t)
      ((outsAt0 m c (t.val - 1) (Nat.lt_of_le_of_lt (Nat.sub_le _ _) t.isLt)).2) (xblk m c t) := by
  have h0 : ¬ t.val % 4 = 0 := by omega
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## The same at an entry, over the extended reals -/

/-- The partial product of point `t` at entry `(p, q)`: row `p` of the activation block against column `q` of the
    dequantised weight block. -/
def part (c : Dev nD) (t : Fin cfg0.N) (p q : Fin 1024) : EReal :=
  ∑ kk : Fin 1024, (xblk m c t (ix2 p kk) : EReal)
    * (((((wblk m c t (ix2 kk q) : BitVec 32).toInt : ℝ) : EReal) - (zblk m c t (ix2 (⟨kk.val / 128, by omega⟩ : Fin 8) q) : EReal))
        * (sblk m c t (ix2 (⟨kk.val / 128, by omega⟩ : Fin 8) q) : EReal))

/-- First point of a run: the scratch's entry is `0 +` the point's partial product. -/
theorem scr_A_apply (c : Dev nD) (t : Fin cfg0.N) (h0 : t.val % 4 = 0) (p q : Fin 1024) :
    ((outsAt0 m c t.val t.isLt).2 (ix2 p q) : EReal) = 0 + part m c t p q := by
  refine (congrFun (scr_A m c t h0) (ix2 p q)).trans ?_
  refine (pay2_apply (wblk m c t) (sblk m c t) (zblk m c t) (k0_pay1 (F := Ideal)) (xblk m c t) p q).trans ?_
  rw [pay1_apply]
  rfl

/-- Middle point: the scratch's entry is the entry the point before left plus the point's partial product. -/
theorem scr_B_apply (c : Dev nD) (t : Fin cfg0.N) (h0 : ¬ t.val % 4 = 0) (h1 : ¬ t.val % 4 = 3) (p q : Fin 1024) :
    ((outsAt0 m c t.val t.isLt).2 (ix2 p q) : EReal)
      = ((outsAt0 m c (prev t).val (prev t).isLt).2 (ix2 p q) : EReal) + part m c t p q := by
  refine (congrFun (scr_B m c t h0 h1) (ix2 p q)).trans ?_
  exact pay2_apply (wblk m c t) (sblk m c t) (zblk m c t) ((outsAt0 m c (prev t).val (prev t).isLt).2) (xblk m c t) p q

/-- Last point: the output block's entry is the scratch entry the point before left plus the point's partial product. -/
theorem out_C_apply (c : Dev nD) (t : Fin cfg0.N) (h1 : t.val % 4 = 3) (p q : Fin 1024) :
    ((outsAt0 m c t.val t.isLt).1 (ix2 p q) : EReal)
      = ((outsAt0 m c (prev t).val (prev t).isLt).2 (ix2 p q) : EReal) + part m c t p q := by
  refine (congrFun (out_Cpt m c t h1) (ix2 p q)).trans ?_
  exact pay2_apply (wblk m c t) (sblk m c t) (zblk m c t) ((outsAt0 m c (prev t).val (prev t).isLt).2) (xblk m c t) p q

/-! ## A partial product, read in the arrays -/

/-- One product of the contraction, read in a block, is the same product read in the arrays, once the block's
    coordinates are recognised: the weight row's group is the group of the feature. -/
theorem term_eq (xa : (⟨2, ![8192, 4096]⟩ : Shape).Idx → EReal) (wa : (⟨2, ![4096, 4096]⟩ : Shape).Idx → BitVec 32)
    (sa za : (⟨2, ![32, 4096]⟩ : Shape).Idx → EReal) (r r' : Fin 8192) (k k' k'' n n' n'' n''' : Fin 4096) (g g' : Fin 32)
    (hr : r' = r) (hk : k' = k) (hk' : k'' = k) (hn : n' = n) (hn' : n'' = n) (hn'' : n''' = n)
    (hg : g = Cert.QLin.grp k) (hg' : g' = Cert.QLin.grp k) :
    xa (ix2 r' k') * (((((wa (ix2 k'' n')).toInt : ℝ) : EReal) - za (ix2 g n'')) * sa (ix2 g' n'''))
      = xa (ix2 r k) * Cert.QLin.wdeq wa za sa k n := by
  subst hr hk hk' hn hn' hn'' hg hg'
  rfl

/-- The partial product of a point with `k = kb`, read in the arrays: the products over the 1024 features of block
    `kb`. Feature `1024 kb + kk` lies in group `(1024 kb + kk) / 128 = 8 kb + kk / 128`, the row of the block's scales
    and zero points that the product reads. -/
theorem part_eq (c : Dev nD) (t : Fin cfg0.N) (kb : Fin 4) (hk : t.val % 4 = kb.val) (p q : Fin 1024)
    (r : Fin 8192) (n : Fin 4096) (hr : r.val = 1024 * (t.val / 16) + p.val) (hn : n.val = 1024 * (t.val / 4 % 4) + q.val) :
    part m c t p q
      = ∑ kk : Fin 1024, (fun k' : Fin 4096 => xarr m c (ix2 r k') * Cert.QLin.wdeq (warr m c) (zarr m c) (sarr m c) k' n)
          (Cert.QLin.feat kb kk) := by
  unfold part
  refine Finset.sum_congr rfl fun kk _ => ?_
  rw [xblk_apply, wblk_apply, sblk_apply, zblk_apply]
  have hkk := kk.isLt
  have hkb := kb.isLt
  refine term_eq (xarr m c) (warr m c) (sarr m c) (zarr m c) _ _ _ _ _ _ _ _ _ _ _ (Fin.ext hr.symm) (Fin.ext ?_) (Fin.ext ?_)
    (Fin.ext hn.symm) (Fin.ext hn.symm) (Fin.ext hn.symm) (Fin.ext ?_) (Fin.ext ?_)
  · show 1024 * (t.val % 4) + kk.val = 1024 * kb.val + kk.val
    rw [hk]
  · show 1024 * (t.val % 4) + kk.val = 1024 * kb.val + kk.val
    rw [hk]
  · show 8 * (t.val % 4) + kk.val / 128 = (1024 * kb.val + kk.val) / 128
    rw [hk]; omega
  · show 8 * (t.val % 4) + kk.val / 128 = (1024 * kb.val + kk.val) / 128
    rw [hk]; omega

end Accum

open Accum

/-! ## The run of four -/

/-- At a write-back point (`t % 4 = 3`) the output block's entry `(p, q)` is entry
    `(1024 (t / 16) + p, 1024 (t / 4 % 4) + q)` of the matrix function: the four partial products of the run,
    accumulated from zero, are the whole contraction. -/
theorem out_at_flush (c : Dev nD) (t : Fin cfg0.N) (h3 : t.val % 4 = 3) (p q : Fin 1024) :
    ((outsAt0 m c t.val t.isLt).1 : Vec Ideal S1024x1024 .f32) (ix2 p q)
      = Cert.QLin.Kmat (xarr m c) (warr m c) (sarr m c) (zarr m c)
          (ix2 (⟨1024 * (t.val / 16) + p.val, by have := t.isLt; have : cfg0.N = 128 := N_0; omega⟩ : Fin 8192)
               (⟨1024 * (t.val / 4 % 4) + q.val, by omega⟩ : Fin 4096)) := by
  have hN : cfg0.N = 128 := N_0
  have hlt := t.isLt
  have v1 : (prev t).val = t.val - 1 := rfl
  have v2 : (prev (prev t)).val = t.val - 2 := by show t.val - 1 - 1 = _; omega
  have v3 : (prev (prev (prev t))).val = t.val - 3 := by show t.val - 1 - 1 - 1 = _; omega
  refine (out_C_apply m c t h3 p q).trans ?_
  rw [scr_B_apply m c (prev t) (by rw [v1]; omega) (by rw [v1]; omega) p q,
    scr_B_apply m c (prev (prev t)) (by rw [v2]; omega) (by rw [v2]; omega) p q,
    scr_A_apply m c (prev (prev (prev t))) (by rw [v3]; omega) p q]
  rw [part_eq m c (prev (prev (prev t))) 0 (by rw [v3]; show _ = 0; omega) p q
        (⟨1024 * (t.val / 16) + p.val, by omega⟩ : Fin 8192) (⟨1024 * (t.val / 4 % 4) + q.val, by omega⟩ : Fin 4096)
        (by rw [v3]; show 1024 * (t.val / 16) + p.val = _; omega) (by rw [v3]; show 1024 * (t.val / 4 % 4) + q.val = _; omega),
    part_eq m c (prev (prev t)) 1 (by rw [v2]; show _ = 1; omega) p q
        (⟨1024 * (t.val / 16) + p.val, by omega⟩ : Fin 8192) (⟨1024 * (t.val / 4 % 4) + q.val, by omega⟩ : Fin 4096)
        (by rw [v2]; show 1024 * (t.val / 16) + p.val = _; omega) (by rw [v2]; show 1024 * (t.val / 4 % 4) + q.val = _; omega),
    part_eq m c (prev t) 2 (by rw [v1]; show _ = 2; omega) p q
        (⟨1024 * (t.val / 16) + p.val, by omega⟩ : Fin 8192) (⟨1024 * (t.val / 4 % 4) + q.val, by omega⟩ : Fin 4096)
        (by rw [v1]; show 1024 * (t.val / 16) + p.val = _; omega) (by rw [v1]; show 1024 * (t.val / 4 % 4) + q.val = _; omega),
    part_eq m c t 3 (by show _ = 3; omega) p q
        (⟨1024 * (t.val / 16) + p.val, by omega⟩ : Fin 8192) (⟨1024 * (t.val / 4 % 4) + q.val, by omega⟩ : Fin 4096)
        rfl rfl]
  exact Cert.QLin.sum_blocks (fun k' : Fin 4096 =>
    xarr m c (ix2 (⟨1024 * (t.val / 16) + p.val, by omega⟩ : Fin 8192) k')
      * Cert.QLin.wdeq (warr m c) (zarr m c) (sarr m c) k' (⟨1024 * (t.val / 4 % 4) + q.val, by omega⟩ : Fin 4096))

end Cert.KernelIdeal.KValue

end
-- ==== Proof.KFinal.lean ====
/-
  The output array of the fused kernel after the region.

  Output block `(i, j)` is written back once, at the point `t = 16 i + 4 j + 3`, with the value the body left there;
  that value is the block of the matrix function `Kmat` at `(i, j)`. Every entry `(r, n)` of the `[8192, 4096]`
  array lies in block `(r / 1024, n / 1024)`, so the 32 write-backs cover the array and it ends as `Kmat` of the
  staged arrays.
-/
import proofs.«402909_j19911468384456_1_alg».proof.Proof.KAccum
import proofs.«402909_j19911468384456_1_alg».proof.Proof.KBlocks
import proofs.«402909_j19911468384456_1_alg».proof.Proof.Spec
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The output window's index map, decided over the grid: at point `t` it names block `(t / 16, t / 4 % 4)`. -/
theorem idx4 : ∀ t : Fin cfg0.N, win0_4.index t (0 : Fin 2) = t.val / 16 ∧ win0_4.index t (1 : Fin 2) = t.val / 4 % 4 :=
  (by decide +kernel : ∀ t : Fin grid0.N, win0_4.index t (0 : Fin 2) = t.val / 16 ∧ win0_4.index t (1 : Fin 2) = t.val / 4 % 4)

/-- What a write-back point writes is its block of the matrix function. -/
theorem flushed_eq (c : Dev nD) (t : Fin cfg0.N) (hf : (cfg0.win 4).flush t = true) :
    (dats m 0 c).flushed 4 t = ((cfg0.win 4).blk t).view.read (Elt Ideal) (result m c) := by
  have hN : cfg0.N = 128 := N_0
  have ht : t.val < 128 := hN ▸ t.isLt
  have h3 : t.val % 4 = 3 := (flush0_4 t).mp hf
  obtain ⟨e0, e1⟩ := idx4 t
  -- the block is whole, so what is written back is all of what the body left
  show (cfg0.win 4).cut (grid0.coords t) ((dats m 0 c).after 4 t) = _
  rw [after0_4]
  refine funext fun (y : S1024x1024.Idx) => ?_
  obtain ⟨p, q, rfl⟩ : ∃ (p q : Fin 1024), y = ix2 p q := ⟨y 0, y 1, eq_ix2 y⟩
  -- entry `(p, q)` of the block read out of the array is the array's entry at the block's offset plus `(p, q)`
  show ((outsAt0 m c t.val t.isLt).1 : Vec Ideal S1024x1024 .f32) (ix2 p q)
      = result m c (((cfg0.win 4).blk t).view.emb (ix2 p q))
  rw [out_at_flush m c t h3 p q]
  refine congrArg _ ?_
  funext a; apply Fin.ext
  match a with
  | ⟨0, _⟩ =>
    show 1024 * (t.val / 16) + p.val = win0_4.index t (0 : Fin 2) * 1024 + 1 * p.val
    rw [e0]; omega
  | ⟨1, _⟩ =>
    show 1024 * (t.val / 4 % 4) + q.val = win0_4.index t (1 : Fin 2) * 1024 + 1 * q.val
    rw [e1]; omega

/-- The output array after the region is the matrix function of the staged arrays. -/
theorem final4 (c : Dev nD) : (dats m 0 c).arrAt 4 cfg0.N = result m c :=
  (dats m 0 c).arrAt_eq_of_cover 4 (result m c) (fun t hf => flushed_eq m c t hf) fun i => by
    -- entry `(r, n)` lies in block `(r / 1024, n / 1024)`, written back at `t = 16 (r / 1024) + 4 (n / 1024) + 3`
    have hN : cfg0.N = 128 := N_0
    have h0 : (i 0 : Nat) < 8192 := (i 0).isLt
    have h1 : (i 1 : Nat) < 4096 := (i 1).isLt
    obtain ⟨t, ht⟩ : ∃ t : Fin cfg0.N, t.val = 16 * ((i 0 : Nat) / 1024) + 4 * ((i 1 : Nat) / 1024) + 3 :=
      ⟨⟨16 * ((i 0 : Nat) / 1024) + 4 * ((i 1 : Nat) / 1024) + 3, by omega⟩, rfl⟩
    obtain ⟨e0, e1⟩ := idx4 t
    refine ⟨t, (flush0_4 t).mpr (by omega), ?_⟩
    show i ∈ ((View.whole main_v3).slice (win0_4.rect t)).set
    rw [View.set_slice_whole, Rect.mem_set_unit]
    intro a
    match a with
    | ⟨0, _⟩ =>
      show win0_4.index t (0 : Fin 2) * 1024 ≤ (i 0 : Nat) ∧ (i 0 : Nat) < win0_4.index t (0 : Fin 2) * 1024 + 1024
      rw [e0]; omega
    | ⟨1, _⟩ =>
      show win0_4.index t (1 : Fin 2) * 1024 ≤ (i 1 : Nat) ∧ (i 1 : Nat) < win0_4.index t (1 : Fin 2) * 1024 + 1024
      rw [e1]; omega

end Cert.KernelIdeal.KValue

end
-- ==== Proof.KHost.lean ====
/-
  The host operations around the fused kernel, read at an index.

  BEFORE the region the program reshapes the activations `[4, 2048, 4096] → [8192, 4096]` (row `2048 a + b`),
  takes the input features by a FILLING take (wrap the index word, gather with clamped start, and where the wrapped
  word is outside `[0, 4095]` substitute a fill value) and changes the float format (the identity on the extended
  reals). When every index word is in `[−4096, 4096)` the in-bounds mask is set everywhere, the fill is never
  selected, and entry `(r, k)` of the staged matrix is `x (r / 2048, r % 2048, col (i₁ k))`.
  AFTER the region it reshapes the product back, takes the output features the same way and adds the bias: entry
  `(a, b, o)` of the result is the product's entry `(2048 a + b, col (i₂ o))` plus `bias o`.
-/
import proofs.«402909_j19911468384456_1_alg».proof.Proof.Gen.KernelIdeal.Frame
import proofs.«402909_j19911468384456_1_alg».proof.Proof.Spec
import proofs.«402909_j19911468384456_1_alg».proof.Proof.Index
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.Tactic

noncomputable section

namespace Cert.KernelIdeal.KValue

open Cert.KernelIdeal Cert.KernelIdeal.Gen
open Idealize.ShloMosaic Idealize.ShloMosaic.TcCoe Idealize.SL.Sem Idealize.ShloMosaic.ValueIdx Cert.QLin

variable (m : (ℓ : Loc nD τ sig) → Buf (Elt Ideal) ℓ)

/-- The argument arrays, at their literal types. -/
abbrev xarg (c : Dev nD) : (⟨3, ![4, 2048, 4096]⟩ : Shape).Idx → EReal := m ((c : Thread nD τ).loc main_arg0)
abbrev iarg1 (c : Dev nD) : (⟨1, ![4096]⟩ : Shape).Idx → BitVec 32 := m ((c : Thread nD τ).loc main_arg1)
abbrev iarg2 (c : Dev nD) : (⟨1, ![4096]⟩ : Shape).Idx → BitVec 32 := m ((c : Thread nD τ).loc main_arg2)
abbrev barg (c : Dev nD) : (⟨1, ![4096]⟩ : Shape).Idx → EReal := m ((c : Thread nD τ).loc main_arg6)
/-- The matrix the region stages as its first operand, and the program's result after the lines that follow the region. -/
abbrev staged (c : Dev nD) : (⟨2, ![8192, 4096]⟩ : Shape).Idx → EReal := V m c main_v2
abbrev tailResult (c : Dev nD) : (⟨3, ![4, 2048, 4096]⟩ : Shape).Idx → EReal :=
  Pipeline.afterTail₀ cfgs (dats m) 0 (V0 m) [hostOps1, hostOps1_1, hostOps1_2] c main_v8

/-! ## The filling take, as the program computes it -/

/-- The index words wrapped: a negative word counts from the end of the axis. -/
abbrev wrapV (i : S4096.Idx → BitVec 32) : S4096.Idx → BitVec 32 :=
  select (cmpi .slt i (broadcastInDim S4096 ![] bcast_S_S4096 (constantI S_ 32 0#32)))
    (addi i (broadcastInDim S4096 ![] bcast_S_S4096 (constantI S_ 32 4096#32))) i

/-- The start indices of the gather: the wrapped words as a column. -/
abbrev startV (i : S4096.Idx → BitVec 32) : S4096x1.Idx → BitVec 32 :=
  broadcastInDim S4096x1 ![0] bcast_S4096_S4096x1_0 (wrapV i)

/-- The in-bounds mask: per index word, whether the wrapped word lies in `[0, 4095]`. -/
abbrev maskV (i : S4096.Idx → BitVec 32) : S4096.Idx → BitVec 1 :=
  Host.reduce IntOp.andi
    (andi (cmpi .sge (startV i) (broadcastInDim S4096x1 ![] bcast_S_S4096x1 (constantI S_ 32 0#32)))
      (cmpi .sle (startV i) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The staged matrix as the lines before the region compute it from the activations and the first index vector. -/
abbrev stagedV (x : S4x2048x4096.Idx → EReal) (i : S4096.Idx → BitVec 32) : S8192x4096.Idx → EReal :=
  truncf (F := Ideal) (φ := .f32) .bf16
    (select (broadcastInDim S8192x4096 ![1] bcast_S4096_S8192x4096_1 (maskV i))
      (Host.gather gather_S8192x4096_S4096x1_S8192x4096_0_1_n_n_1_1_81921
        (shapeCast S8192x4096 x shapeCasts_S4x2048x4096_S8192x4096) (startV i))
      (broadcastInDim S8192x4096 ![] bcast_S_S8192x4096 (constant (F := Ideal) S_ .f32 0x7FC00000#32)))
    bitsLt_bf16_f32

/-- A conjunction of bits all set, from a set bit, is set. -/
theorem foldl_andi_one {ι : Type} (f : ι → BitVec 1) (hf : ∀ n, f n = 1#1) :
    ∀ l : List ι, l.foldl (fun r n => IntOp.andi r (f n)) 1#1 = 1#1
  | [] => rfl
  | n :: l => by
    rw [List.foldl_cons, hf n, show IntOp.andi 1#1 1#1 = 1#1 from by decide]
    exact foldl_andi_one f hf l

/-- A reduce-and of an array of set bits, from a set bit, is set at every index. -/
theorem reduce_andi_one {s t u : Shape} {axes : List (Fin s.rank)} (x : s.Idx → BitVec 1) (init : u.Idx → BitVec 1)
    (h : s.ReducesTo axes t) (hu : 0 < u.numel) (hx : ∀ j, x j = 1#1) (hinit : init (Shape.Idx.first hu) = 1#1) (j : t.Idx) :
    Host.reduce IntOp.andi x init h hu j = 1#1 := by
  unfold Host.reduce
  rw [hinit]
  exact foldl_andi_one (fun n => x (s.rowMajor.symm n)) (fun n => hx _) _

/-- A select reads its first array where the condition bit is set. -/
theorem select_of_one {s : Shape} {α : Type} (M : IVec s 1) (a b : s.Idx → α) (j : s.Idx) (h : M j = 1#1) :
    select M a b j = a j := by
  show Scalar.select (M j) (a j) (b j) = a j
  rw [h]; rfl

/-- Every index of a one-column table is a row's. -/
theorem eq_ixP (j : S4096x1.Idx) : ∃ p : Fin 4096, j = StableHlo.Predicate.ixP p := by
  refine ⟨j 0, ?_⟩
  funext a
  match a with
  | ⟨0, _⟩ => rfl
  | ⟨1, _⟩ => exact Subsingleton.elim (α := Fin 1) _ _

/-- The wrapped words, word by word. -/
theorem wrapV_apply (i : S4096.Idx → BitVec 32) (p : Fin 4096) : wrapV i (ix1 p) = wrap (i (ix1 p)) := rfl

/-- Row `p` of the start indices is the wrapped word `p`. -/
theorem startV_apply (i : S4096.Idx → BitVec 32) (p : Fin 4096) : startV i (StableHlo.Predicate.ixP p) = wrap (i (ix1 p)) := by
  refine (broadcastInDim_apply _ _ _ (StableHlo.Predicate.ixP p) (ix1 p) ?_).trans (wrapV_apply i p)
  intro a
  match a with
  | ⟨0, _⟩ => rfl

/-- With every index word in `[−4096, 4096)` the in-bounds mask is set everywhere. -/
theorem maskV_apply (i : S4096.Idx → BitVec 32)
    (h : ∀ p : Fin 4096, IntOp.cmpi .sge (i (ix1 p)) 4294963200#32 = 1#1 ∧ IntOp.cmpi .slt (i (ix1 p)) 4096#32 = 1#1)
    (q : S4096.Idx) : maskV i q = 1#1 := by
  refine reduce_andi_one _ _ _ _ (fun j => ?_) rfl q
  show IntOp.andi (IntOp.cmpi .sge (startV i j) 0#32) (IntOp.cmpi .sle (startV i j) 4095#32) = 1#1
  obtain ⟨p, rfl⟩ := eq_ixP j
  rw [startV_apply]
  obtain ⟨ha, hb⟩ := mask_of_range _ (h p).1 (h p).2
  rw [ha, hb]; decide

/-- The staged matrix at an index, all index words in range. -/
theorem stagedV_apply (x : S4x2048x4096.Idx → EReal) (i : S4096.Idx → BitVec 32)
    (h : ∀ p : Fin 4096, IntOp.cmpi .sge (i (ix1 p)) 4294963200#32 = 1#1 ∧ IntOp.cmpi .slt (i (ix1 p)) 4096#32 = 1#1)
    (r : Fin 8192) (k : Fin 4096) :
    stagedV x i (ix2 r k)
      = x (ix3 (⟨r.val / 2048, by omega⟩ : Fin 4) (⟨r.val % 2048, by omega⟩ : Fin 2048) (col (i (ix1 k)))) := by
  have hm : broadcastInDim S8192x4096 ![1] bcast_S4096_S8192x4096_1 (maskV i) (ix2 r k) = 1#1 := by
    refine (broadcastInDim_apply _ _ _ (ix2 r k) (ix1 k) ?_).trans (maskV_apply i h _)
    intro a
    match a with
    | ⟨0, _⟩ => rfl
  show select _ _ _ (ix2 r k) = _
  rw [select_of_one _ _ _ _ hm]
  rw [gather_last2_wrapped _ rfl rfl rfl rfl rfl _ (startV i) i (fun p => startV_apply i p) r k]
  refine shapeCast_apply _ _ _ _ ?_
  rw [Shape.rowMajor_val_three, Shape.rowMajor_val_two]
  show (r.val / 2048 * 2048 + r.val % 2048) * 4096 + (col (i (ix1 k))).val = r.val * 4096 + (col (i (ix1 k))).val
  omega

set_option maxHeartbeats 2000000 in
/-- The lines before the region, composed: the staged matrix is `stagedV` of the activations and the first index vector. -/
theorem staged_eq (c : Dev nD) : staged m c = stagedV (xarg m c) (iarg1 m c) := by
  show V m c main_v2 = _
  dsimp only [Gen.V, Gen.V0]
  simp only [Gen.hostOps0, Gen.hostOps0_1, Gen.hostOps0_2, List.flatten_cons, List.flatten_nil, List.append_nil, List.cons_append,
    List.nil_append]
  after_results_simp
  rfl

/-- Row `r` of the staged matrix is activation row `(r / 2048, r % 2048)` with its features taken at the clamped
    wrapped indices — the fill is never selected when every index word is in range. -/
theorem staged_x_apply (c : Dev nD)
    (h1 : (∀ p : Fin 4096, IntOp.cmpi .sge (iarg1 m c (ix1 p)) 4294963200#32 = 1#1 ∧ IntOp.cmpi .slt (iarg1 m c (ix1 p)) 4096#32 = 1#1))
    (r : Fin 8192) (k : Fin 4096) :
    staged m c (ix2 r k)
      = xarg m c (ix3 (⟨r.val / 2048, by omega⟩ : Fin 4) (⟨r.val % 2048, by omega⟩ : Fin 2048) (col (iarg1 m c (ix1 k)))) :=
  (congrFun (staged_eq m c) (ix2 r k)).trans (stagedV_apply (xarg m c) (iarg1 m c) h1 r k)

/-! ## The lines after the region -/

/-- The program's result as the lines after the region compute it from the region's output array, the second index
    vector and the bias. -/
abbrev tailV (A : S8192x4096.Idx → EReal) (i : S4096.Idx → BitVec 32) (bi : S4096.Idx → EReal) : S4x2048x4096.Idx → EReal :=
  addf (F := Ideal) (φ := .f32)
    (select (broadcastInDim S4x2048x4096 ![2] bcast_S4096_S4x2048x4096_2 (maskV i))
      (Host.gather gather_S4x2048x4096_S4096x1_S4x2048x4096_01_2_n_n_2_1_420481
        (shapeCast S4x2048x4096 A shapeCasts_S8192x4096_S4x2048x4096) (startV i))
      (broadcastInDim S4x2048x4096 ![] bcast_S_S4x2048x4096 (constant (F := Ideal) S_ .f32 0x7FC00000#32)))
    (broadcastInDim S4x2048x4096 ![0, 1, 2] bcast_S1x1x4096_S4x2048x4096_0_1_2
      (broadcastInDim S1x1x4096 ![2] bcast_S4096_S1x1x4096_2 bi))

set_option maxHeartbeats 2000000 in
/-- The lines after the region, composed, from any contents `W` of the buffers at the region's exit. -/
theorem tail_after (W : Valuation τ sig (Elt Ideal)) :
    (StableHlo.after (List.flatten [hostOps1, hostOps1_1, hostOps1_2]) W (Proc.devRef .tc main_v8) : S4x2048x4096.Idx → EReal)
      = tailV (W (Proc.devRef .tc main_v3)) (W (Proc.devRef .tc main_arg2)) (W (Proc.devRef .tc main_arg6)) := by
  simp only [Gen.hostOps1, Gen.hostOps1_1, Gen.hostOps1_2, List.flatten_cons, List.flatten_nil, List.append_nil, List.cons_append,
    List.nil_append]
  after_results_simp
  rfl

/-- The result at an index, all index words in range. -/
theorem tailV_apply (A : S8192x4096.Idx → EReal) (i : S4096.Idx → BitVec 32) (bi : S4096.Idx → EReal)
    (h : ∀ p : Fin 4096, IntOp.cmpi .sge (i (ix1 p)) 4294963200#32 = 1#1 ∧ IntOp.cmpi .slt (i (ix1 p)) 4096#32 = 1#1)
    (a : Fin 4) (b : Fin 2048) (o : Fin 4096) :
    tailV A i bi (ix3 a b o)
      = A (ix2 (⟨2048 * a.val + b.val, by omega⟩ : Fin 8192) (col (i (ix1 o)))) + bi (ix1 o) := by
  have hm : broadcastInDim S4x2048x4096 ![2] bcast_S4096_S4x2048x4096_2 (maskV i) (ix3 a b o) = 1#1 := by
    refine (broadcastInDim_apply _ _ _ (ix3 a b o) (ix1 o) ?_).trans (maskV_apply i h _)
    intro z
    match z with
    | ⟨0, _⟩ => rfl
  have hb : broadcastInDim S4x2048x4096 ![0, 1, 2] bcast_S1x1x4096_S4x2048x4096_0_1_2
      (broadcastInDim S1x1x4096 ![2] bcast_S4096_S1x1x4096_2 bi) (ix3 a b o) = bi (ix1 o) := by
    refine (broadcastInDim_apply _ _ _ (ix3 a b o) (ix3 (0 : Fin 1) (0 : Fin 1) o) ?_).trans
      (broadcastInDim_apply _ _ _ (ix3 (0 : Fin 1) (0 : Fin 1) o) (ix1 o) ?_)
    · intro z
      match z with
      | ⟨0, _⟩ => rfl
      | ⟨1, _⟩ => rfl
      | ⟨2, _⟩ => rfl
    · intro z
      match z with
      | ⟨0, _⟩ => rfl
  show select _ _ _ (ix3 a b o) + _ = _
  rw [hb, select_of_one _ _ _ _ hm,
    gather_last3_wrapped _ rfl rfl rfl rfl rfl _ (startV i) i (fun p => startV_apply i p) a b o]
  congr 1
  refine shapeCast_apply _ _ _ _ ?_
  rw [Shape.rowMajor_val_two, Shape.rowMajor_val_three]
  show (2048 * a.val + b.val) * 4096 + (col (i (ix1 o))).val = (a.val * 2048 + b.val) * 4096 + (col (i (ix1 o))).val
  omega

/-- The program's result is `tailV` of the region's output array, the second index vector and the bias: the output
    array is read where the region left it, the two arguments as launched. -/
theorem tail_eq (c : Dev nD) (A : S8192x4096.Idx → EReal) (hA : (dats m 0 c).arrAt 4 cfg0.N = A) :
    tailResult m c = tailV A (iarg2 m c) (barg m c) := by
  show Pipeline.afterTail₀ cfgs (dats m) 0 (V0 m) [hostOps1, hostOps1_1, hostOps1_2] c main_v8 = _
  unfold Pipeline.afterTail₀
  have e3 : Pipeline.withArrays (cfgs 0).spec c (V0 m c) (fun w => (dats m 0 c).arrAt w (cfgs 0).N) (Proc.devRef .tc main_v3) = A :=
    (Pipeline.withArrays_arr spec0 launch0.win.arr_inj c _ _ 4).trans hA
  have e2 : Pipeline.withArrays (cfgs 0).spec c (V0 m c) (fun w => (dats m 0 c).arrAt w (cfgs 0).N) (Proc.devRef .tc main_arg2)
      = iarg2 m c :=
    (Pipeline.withArrays_of_ne _ c (V0 m c) _ main_arg2 (by exact (by decide : ∀ w, Pipeline.arrRef spec0 w ≠ main_arg2))).trans
      (V_main_arg2 m c)
  have e6 : Pipeline.withArrays (cfgs 0).spec c (V0 m c) (fun w => (dats m 0 c).arrAt w (cfgs 0).N) (Proc.devRef .tc main_arg6)
      = barg m c :=
    (Pipeline.withArrays_of_ne _ c (V0 m c) _ main_arg6 (by exact (by decide : ∀ w, Pipeline.arrRef spec0 w ≠ main_arg6))).trans
      (V_main_arg6 m c)
  refine (tail_after _).trans ?_
  rw [e3, e2, e6]

/-- The program's result from what the region left in its output array `A`: the product's entry at row
    `2048 a + b` and the clamped wrapped output column, plus the bias. -/
theorem tail_apply (c : Dev nD) (A : (⟨2, ![8192, 4096]⟩ : Shape).Idx → EReal)
    (hA : (dats m 0 c).arrAt 4 cfg0.N = A)
    (h2 : (∀ p : Fin 4096, IntOp.cmpi .sge (iarg2 m c (ix1 p)) 4294963200#32 = 1#1 ∧ IntOp.cmpi .slt (iarg2 m c (ix1 p)) 4096#32 = 1#1))
    (a : Fin 4) (b : Fin 2048) (o : Fin 4096) :
    tailResult m c (ix3 a b o)
      = A (ix2 (⟨2048 * a.val + b.val, by omega⟩ : Fin 8192) (col (iarg2 m c (ix1 o)))) + barg m c (ix1 o) :=
  (congrFun (tail_eq m c A hA) (ix3 a b o)).trans (tailV_apply A (iarg2 m c) (barg m c) h2 a b o)

end Cert.KernelIdeal.KValue

end
-- ==== Proof.PreDecode.lean ====
/-
  What the precondition says of the two index vectors.

  The precondition is a conjunction, folded by `and`, of four finiteness tests and two range tests; each range test
  is the `and`-reduction over the 4096 entries of `(−4096 ≤ i) ∧ (i < 4096)` as signed word compares. If the whole
  is true, every entry of each index vector passes both compares.
-/
import proofs.«402909_j19911468384456_1_alg».proof.Pre_finite_inputs
import Idealize.ShloMosaic.Lib.ReduceAll
import Idealize.ShloMosaic.Lib.ValueIdx

noncomputable section

namespace Cert.QLin

open Idealize.ShloMosaic Idealize.ShloMosaic.ValueIdx Cert.Pre_finite_inputs

variable [Cert.Pre_finite_inputs.Facts] {F : FTy → Type} [FloatOps F]

/-- One range test read back: if the `and`-reduction over the 4096 entries of `(lo ≤ x) ∧ (x < hi)`, the two bounds
    broadcast scalars, is true, then every entry passes both compares. -/
theorem range_of_reduce (x : IVec S4096 32) (lo hi : BitVec 32)
    (hb : S_.BroadcastsInDim S4096 (![] : Fin 0 → Fin S4096.rank)) (hr : S4096.ReducesTo [0] S_) (hn : 0 < S_.numel)
    (e : Host.reduce IntOp.andi
          (andi (cmpi .sge x (broadcastInDim S4096 ![] hb (constantI S_ 32 lo)))
                (cmpi .slt x (broadcastInDim S4096 ![] hb (constantI S_ 32 hi))))
          (constantI S_ 1 1#1) hr hn ix0 = 1#1) (p : Fin 4096) :
    IntOp.cmpi .sge (x (ix1 p)) lo = 1#1 ∧ IntOp.cmpi .slt (x (ix1 p)) hi = 1#1 := by
  -- the scalar shape has one index, so every entry reduces into it
  haveI : Subsingleton S_.Idx := ⟨fun a b => funext fun d => d.elim0⟩
  have hp := Host.reduce_andi_all _ _ hr hn ix0 e (ix1 p)
  -- the vector `and`, the vector compares and the broadcast of a constant scalar are all pointwise
  exact IntOp.andi_eq_one.1 hp

/-- The tail of the precondition (its last two conjuncts are the two range tests) read back. -/
theorem range_of_part1 (a1 a2 : IVec S4096 32) (v13 : IVec S_ 1) (v16 : IVec S4096 1)
    (h : Cert.Pre_finite_inputs.fn_part1 (F := F) a1 a2 v13 v16 ix0 = 1#1) :
    (∀ p : Fin 4096, IntOp.cmpi .sge (a1 (ix1 p)) 4294963200#32 = 1#1 ∧ IntOp.cmpi .slt (a1 (ix1 p)) 4096#32 = 1#1)
    ∧ (∀ p : Fin 4096, IntOp.cmpi .sge (a2 (ix1 p)) 4294963200#32 = 1#1 ∧ IntOp.cmpi .slt (a2 (ix1 p)) 4096#32 = 1#1) := by
  -- the result is `((c ∧ r₁) ∧ r₂)` at the one scalar index, `r₁`, `r₂` the two range reductions
  obtain ⟨h12, h2⟩ := IntOp.andi_eq_one.1 h
  obtain ⟨-, h1⟩ := IntOp.andi_eq_one.1 h12
  exact ⟨range_of_reduce a1 _ _ _ _ _ h1, range_of_reduce a2 _ _ _ _ _ h2⟩

/-- Under the precondition every entry of `in_reorder` (argument 1) and of `out_reorder` (argument 2) is a word in
    `[−4096, 4096)`. -/
theorem range_of_pre (a0 : FVec F S4x2048x4096 .f32) (a1 a2 : IVec S4096 32) (a3 : IVec S4096x4096 32)
    (a4 a5 : FVec F S32x4096 .f32) (a6 : FVec F S4096 .f32)
    (h : Cert.Pre_finite_inputs.fn (F := F) a0 a1 a2 a3 a4 a5 a6 = fun _ => 1#1) :
    (∀ p : Fin 4096, IntOp.cmpi .sge (a1 (ix1 p)) 4294963200#32 = 1#1 ∧ IntOp.cmpi .slt (a1 (ix1 p)) 4096#32 = 1#1)
    ∧ (∀ p : Fin 4096, IntOp.cmpi .sge (a2 (ix1 p)) 4294963200#32 = 1#1 ∧ IntOp.cmpi .slt (a2 (ix1 p)) 4096#32 = 1#1) := by
  -- the precondition at its one index; the function is a chain of definitions ending in its tail part
  have h0 : Cert.Pre_finite_inputs.fn (F := F) a0 a1 a2 a3 a4 a5 a6 ix0 = 1#1 := congrFun h ix0
  unfold Cert.Pre_finite_inputs.fn at h0
  exact range_of_part1 (F := F) a1 a2 _ _ h0

end Cert.QLin

end
-- ==== Proof.KernelValue.lean ====
/-
  The kernel's program computes `G` under the precondition.

  The region leaves `Kmat` of the staged arrays in its output array; the staged activation matrix is the input
  features taken at the clamped wrapped indices, and the lines after the region take the output features the same
  way and add the bias. Entry `(a, b, o)` of the result is therefore
    `(∑ k, x (a, b, col (i₁ k)) · wdeq k (col (i₂ o))) + bias o`,
  which is `G`: row `2048 a + b` of the reshaped activations is row `(a, b)`.
  The precondition is used once: every entry of the two index vectors lies in `[−4096, 4096)`, so neither filling
  take ever selects its fill value.
-/
import proofs.«402909_j19911468384456_1_alg».proof.Defs
import proofs.«402909_j19911468384456_1_alg».proof.Proof.Gen.Pre_finite_inputs
import proofs.«402909_j19911468384456_1_alg».proof.Proof.KFinal
import proofs.«402909_j19911468384456_1_alg».proof.Proof.KHost
import proofs.«402909_j19911468384456_1_alg».proof.Proof.PreDecode

noncomputable section

namespace Cert.KernelIdeal.KValue

open Cert.KernelIdeal Cert.KernelIdeal.Gen
open Idealize.ShloMosaic Idealize.ShloMosaic.TcCoe Idealize.SL.Sem Idealize.ShloMosaic.ValueIdx Cert.QLin

variable (m : (ℓ : Loc nD τ sig) → Buf (Elt Ideal) ℓ) (ρ : Dev nD → PrngReg)

/-- Row `2048 a + b` of the `[8192, 4096]` view of the activations is row `(a, b)`. -/
theorem row_split (a : Fin 4) (b : Fin 2048) :
    (⟨(2048 * a.val + b.val) / 2048, by omega⟩ : Fin 4) = a ∧ (⟨(2048 * a.val + b.val) % 2048, by omega⟩ : Fin 2048) = b :=
  ⟨Fin.ext (by show (2048 * a.val + b.val) / 2048 = a.val; omega), Fin.ext (by show (2048 * a.val + b.val) % 2048 = b.val; omega)⟩

/-- The program's result at `(a, b, o)`, when every index word is in range, is `G`'s formula. -/
theorem tailResult_eq_G (c : Dev nD)
    (h1 : ∀ p : Fin 4096, IntOp.cmpi .sge (iarg1 m c (ix1 p)) 4294963200#32 = 1#1 ∧ IntOp.cmpi .slt (iarg1 m c (ix1 p)) 4096#32 = 1#1)
    (h2 : ∀ p : Fin 4096, IntOp.cmpi .sge (iarg2 m c (ix1 p)) 4294963200#32 = 1#1 ∧ IntOp.cmpi .slt (iarg2 m c (ix1 p)) 4096#32 = 1#1) :
    tailResult m c = G (xarg m c) (iarg1 m c) (iarg2 m c) (warr m c) (sarr m c) (zarr m c) (barg m c) := by
  funext j
  obtain ⟨a, b, o, rfl⟩ : ∃ (a : Fin 4) (b : Fin 2048) (o : Fin 4096), j = ix3 a b o := ⟨j 0, j 1, j 2, eq_ix3 j⟩
  refine (tail_apply m c (Kmat (xarr m c) (warr m c) (sarr m c) (zarr m c)) (final4 m c) h2 a b o).trans ?_
  unfold G Kmat
  refine congrArg₂ (· + ·) (Finset.sum_congr rfl fun k _ => ?_) rfl
  refine congrArg₂ (· * ·) ?_ rfl
  refine (staged_x_apply m c h1 _ k).trans ?_
  rw [(row_split a b).1, (row_split a b).2]

/-- Under the precondition every weakly fair execution of the kernel's program terminates with its result at `G`
    of the argument arrays and the arguments unchanged. -/
theorem run_G (hpre : Cert.Pre_KernelIdeal m) :
    θ_run defs (onTc (τ := τ) (main (F := Ideal))) ⟨m, fun _ => 0, ρ⟩ fun r => ∀ c : Dev nD,
      r.2.mem ((c.tc : Thread nD τ).loc main_v8)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run_main m ρ)
  have hr := range_of_pre _ _ _ _ _ _ _ (hpre c)
  refine ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans (((dats m 0 c).arrAt_in 1 rfl _).trans ((A_eq m c 1).trans (V_main_arg3 m c))),
    ((h c).1 2).trans (((dats m 0 c).arrAt_in 2 rfl _).trans ((A_eq m c 2).trans (V_main_arg4 m c))),
    ((h c).1 3).trans (((dats m 0 c).arrAt_in 3 rfl _).trans ((A_eq m c 3).trans (V_main_arg5 m c))),
    ((h c).2 main_arg6 (Pipeline.mem_restRefs_of main_arg6 (by decide) (by decide))).trans (W_main_arg6 m (dats m) c)⟩
  refine ((h c).2 main_v8 (Pipeline.mem_restRefs_of main_v8 (by decide) (by decide))).trans ?_
  refine (tailResult_eq_G m c hr.1 hr.2).trans ?_
  show G (xarg m c) (iarg1 m c) (iarg2 m c) (V m c main_arg3) (V m c main_arg4) (V m c main_arg5) (barg m c) = _
  rw [V_main_arg3, V_main_arg4, V_main_arg5]

end Cert.KernelIdeal.KValue

end
-- ==== Proof.lean ====
/-
  The certificate of a quantised linear layer: a fused Pallas kernel (per-group dequantisation of integer weights
  and a matmul blocked over the 4096 input features, four blocks accumulated in an f32 scratch), with the input and
  output features permuted by gathers on the host, against its jnp reference (gather, dequantise, one einsum,
  gather, add the bias).

  Both programs compute, over the extended reals,
      G (b, s, o) = (∑ k, x (b, s, col (i₁ k)) · (iw k n − z (k / 128) n) · sc (k / 128) n) + bias o,   n = col (i₂ o),
  where `col` wraps a negative index word and clamps it into `[0, 4095]` (Proof/Spec.lean). The reference does so
  for every input (Proof/RefValue.lean). The kernel's program takes the features with a FILLING take, which
  substitutes a fill value where the wrapped index is out of range; the precondition says every index word lies in
  `[−4096, 4096)`, where the fill is never selected (Proof/PreDecode.lean, Proof/Index.lean, Proof/KHost.lean). The
  kernel's four partial products, accumulated from zero, are the whole contraction regrouped in blocks of 1024
  (Proof/KPieces.lean, Proof/KAccum.lean, Proof/KFinal.lean) — a regrouping of one finite sum, which needs no
  finiteness of the float inputs. Proof/KernelValue.lean assembles the kernel's side.

  The three frames are the generated ones; the idealisation rewrote nothing, so `preserves` is trivial.
-/
import proofs.«402909_j19911468384456_1_alg».proof.Defs
import proofs.«402909_j19911468384456_1_alg».proof.Proof.Gen.Kernel
import proofs.«402909_j19911468384456_1_alg».proof.Proof.Gen.Kernel.Skeleton
import proofs.«402909_j19911468384456_1_alg».proof.Proof.Gen.Kernel.Launch
import proofs.«402909_j19911468384456_1_alg».proof.Proof.Gen.Kernel.Points
import proofs.«402909_j19911468384456_1_alg».proof.Proof.Gen.Kernel.Frame
import proofs.«402909_j19911468384456_1_alg».proof.Proof.Gen.KernelIdeal
import proofs.«402909_j19911468384456_1_alg».proof.Proof.Gen.KernelIdeal.Skeleton
import proofs.«402909_j19911468384456_1_alg».proof.Proof.Gen.KernelIdeal.Launch
import proofs.«402909_j19911468384456_1_alg».proof.Proof.Gen.KernelIdeal.Points
import proofs.«402909_j19911468384456_1_alg».proof.Proof.Gen.KernelIdeal.Frame
import proofs.«402909_j19911468384456_1_alg».proof.Proof.Gen.ReferenceIdeal
import proofs.«402909_j19911468384456_1_alg».proof.Proof.Gen.Pre_finite_inputs
import proofs.«402909_j19911468384456_1_alg».proof.Proof.Gen.ReferenceIdeal.Run
import proofs.«402909_j19911468384456_1_alg».proof.Proof.Gen.ReferenceIdeal.Read
import proofs.«402909_j19911468384456_1_alg».proof.Proof.RefValue
import proofs.«402909_j19911468384456_1_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on the seven arguments, both programs end at `G` of the
    arguments. -/
theorem algebraic : Cert.algebraic_KernelIdeal_ReferenceIdeal := by
  intro m ρ m' ρ' hpre hagree
  refine ⟨fun c => Cert.QLin.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run_G m ρ hpre, ?_⟩
  refine (θ_run Cert.ReferenceIdeal.defs _ _).mono (fun r h c => ⟨(h c).1.trans ?_, (h c).2⟩)
    (Cert.ReferenceIdeal.RefValue.run_G m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
